-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512x40 : Shape := ⟨4, ![8, 256, 512, 40]⟩
abbrev S8x256x512x4 : Shape := ⟨4, ![8, 256, 512, 4]⟩
abbrev S_ : Shape := ⟨0, ![]⟩

class Facts : Prop where
  bcast_S_S8x256x512x40 : S_.BroadcastsInDim S8x256x512x40 (![] : Fin 0 → Fin S8x256x512x40.rank)
  reducesTo_S8x256x512x40_S_d0_1_2_3 : S8x256x512x40.ReducesTo [0, 1, 2, 3] S_
  h_S_ : 0 < S_.numel
  bcast_S_S8x256x512x4 : S_.BroadcastsInDim S8x256x512x4 (![] : Fin 0 → Fin S8x256x512x4.rank)
  reducesTo_S8x256x512x4_S_d0_1_2_3 : S8x256x512x4.ReducesTo [0, 1, 2, 3] S_

variable [Facts]

def fn {F : FTy → Type} [FloatOps F] (main_arg0 : FVec F S8x256x512x40 .f32) (main_arg1 : FVec F S8x256x512x4 .f32) : IVec S_ 1 :=
  let main_v0 : FVec F S8x256x512x40 .f32 := Host.absf main_arg0
  let main_cst : FVec F S_ .f32 := constant S_ .f32 0x7F800000#32
  let main_v1 : FVec F S8x256x512x40 .f32 := broadcastInDim S8x256x512x40 ![] bcast_S_S8x256x512x40 main_cst
  let main_v2 : IVec S8x256x512x40 1 := cmpf .olt main_v0 main_v1
  let main_c : IVec S_ 1 := constantI S_ 1 1#1
  let main_v3 : IVec S_ 1 := (fun x v => Host.reduce IntOp.andi x v reducesTo_S8x256x512x40_S_d0_1_2_3 h_S_) main_v2 main_c
  let main_v4 : FVec F S8x256x512x4 .f32 := Host.absf main_arg1
  let main_cst_0 : FVec F S_ .f32 := constant S_ .f32 0x7F800000#32
  let main_v5 : FVec F S8x256x512x4 .f32 := broadcastInDim S8x256x512x4 ![] bcast_S_S8x256x512x4 main_cst_0
  let main_v6 : IVec S8x256x512x4 1 := cmpf .olt main_v4 main_v5
  let main_c_1 : IVec S_ 1 := constantI S_ 1 1#1
  let main_v7 : IVec S_ 1 := (fun x v => Host.reduce IntOp.andi x v reducesTo_S8x256x512x4_S_d0_1_2_3 h_S_) main_v6 main_c_1
  let main_v8 : IVec S_ 1 := andi main_v3 main_v7
  main_v8
-- ==== Kernel.lean ====
abbrev S8x256x512x40 : Shape := ⟨4, ![8, 256, 512, 40]⟩
abbrev S8x256x512x4 : Shape := ⟨4, ![8, 256, 512, 4]⟩
abbrev S8x131072x40 : Shape := ⟨3, ![8, 131072, 40]⟩
abbrev S8x131072x4 : Shape := ⟨3, ![8, 131072, 4]⟩
abbrev S8x4x4 : Shape := ⟨3, ![8, 4, 4]⟩
abbrev S8x4x40 : Shape := ⟨3, ![8, 4, 40]⟩
abbrev S8x40x40 : Shape := ⟨3, ![8, 40, 40]⟩
abbrev S_ : Shape := ⟨0, ![]⟩
abbrev S1x8192x4 : Shape := ⟨3, ![1, 8192, 4]⟩
abbrev S1x8192x40 : Shape := ⟨3, ![1, 8192, 40]⟩
abbrev S1x4x4 : Shape := ⟨3, ![1, 4, 4]⟩
abbrev S1x4x40 : Shape := ⟨3, ![1, 4, 40]⟩
abbrev S1x40x40 : Shape := ⟨3, ![1, 40, 40]⟩
abbrev S4x4 : Shape := ⟨2, ![4, 4]⟩
abbrev S4x40 : Shape := ⟨2, ![4, 40]⟩
abbrev S40x40 : Shape := ⟨2, ![40, 40]⟩
abbrev S8192x4 : Shape := ⟨2, ![8192, 4]⟩
abbrev S8192x40 : Shape := ⟨2, ![8192, 40]⟩

abbrev nBuf : Space → Nat
  | .hbm => 22
  | .vmem => 13
  | .smem => 0
  | _ => 0

abbrev bufTy : (tb : Table) → Fin (tcTables nBuf tb) → BufTy
  | .hbm, ⟨0, _⟩ => ⟨S8x256x512x40, .f32⟩
  | .hbm, ⟨1, _⟩ => ⟨S8x256x512x4, .f32⟩
  | .hbm, ⟨2, _⟩ => ⟨S8x131072x40, .f32⟩
  | .hbm, ⟨3, _⟩ => ⟨S8x131072x4, .f32⟩
  | .hbm, ⟨4, _⟩ => ⟨S8x4x4, .f32⟩
  | .hbm, ⟨5, _⟩ => ⟨S8x4x40, .f32⟩
  | .hbm, ⟨6, _⟩ => ⟨S8x40x40, .f32⟩
  | .hbm, ⟨7, _⟩ => ⟨S8x4x4, .f32⟩
  | .hbm, ⟨8, _⟩ => ⟨S_, .f32⟩
  | .hbm, ⟨9, _⟩ => ⟨S_, .f32⟩
  | .hbm, ⟨10, _⟩ => ⟨S8x4x40, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x40x40, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x8192x4, .f32⟩
  | .local _ .vmem, ⟨1, _⟩ => ⟨S1x8192x4, .f32⟩
  | .local _ .vmem, ⟨2, _⟩ => ⟨S1x8192x40, .f32⟩
  | .local _ .vmem, ⟨3, _⟩ => ⟨S1x8192x40, .f32⟩
  | .local _ .vmem, ⟨4, _⟩ => ⟨S1x4x4, .f32⟩
  | .local _ .vmem, ⟨5, _⟩ => ⟨S1x4x4, .f32⟩
  | .local _ .vmem, ⟨6, _⟩ => ⟨S1x4x40, .f32⟩
  | .local _ .vmem, ⟨7, _⟩ => ⟨S1x4x40, .f32⟩
  | .local _ .vmem, ⟨8, _⟩ => ⟨S1x40x40, .f32⟩
  | .local _ .vmem, ⟨9, _⟩ => ⟨S1x40x40, .f32⟩
  | .local _ .vmem, ⟨10, _⟩ => ⟨S4x4, .f32⟩
  | .local _ .vmem, ⟨11, _⟩ => ⟨S4x40, .f32⟩
  | .local _ .vmem, ⟨12, _⟩ => ⟨S40x40, .f32⟩
  | _, _ => ⟨S8x256x512x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v2_2 : Ref sig .tc := ⟨.hbm, 6, rfl⟩
abbrev main_call0_v3 : Ref sig .tc := ⟨.hbm, 7, rfl⟩
abbrev main_call0_cst : Ref sig .tc := ⟨.hbm, 8, rfl⟩
abbrev main_call0_v4 : Ref sig .tc := ⟨.hbm, 9, rfl⟩
abbrev main_call0_v5 : Ref sig .tc := ⟨.hbm, 10, rfl⟩
abbrev main_call0_cst_0 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_cst_2 : Ref sig .tc := ⟨.hbm, 17, rfl⟩
abbrev main_call0_v10 : Ref sig .tc := ⟨.hbm, 18, rfl⟩
abbrev main_call0_v11 : Ref sig .tc := ⟨.hbm, 19, rfl⟩
abbrev main_call0_cst_3 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_20 : BitVec 32 := 0#32
  let v29 : BitVec 1 := Scalar.cmpi .ne v28 c0_i32_20
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x40x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x256x512x40_S8x131072x40 : S8x256x512x40.ShapeCasts S8x131072x40
  shapeCasts_S8x256x512x4_S8x131072x4 : S8x256x512x4.ShapeCasts S8x131072x4
  reducesTo_S8x4x4_S_d0_1_2 : S8x4x4.ReducesTo [0, 1, 2] S_
  h_S_ : 0 < S_.numel
  reducesTo_S8x4x40_S_d0_1_2 : S8x4x40.ReducesTo [0, 1, 2] S_
  reducesTo_S8x40x40_S_d0_1_2 : S8x40x40.ReducesTo [0, 1, 2] S_
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S4x40_S4x40_0_0 : ∀ a, (![0, 0] : Fin 2 → Nat) a + S4x40.size a ≤ S4x40.size a
  h_S4x40 : 0 < S4x40.numel
  shapeCasts_S4x40_S4x40 : S4x40.ShapeCasts S4x40
  inb_S40x40_S40x40_0_0 : ∀ a, (![0, 0] : Fin 2 → Nat) a + S40x40.size a ≤ S40x40.size a
  h_S40x40 : 0 < S40x40.numel
  shapeCasts_S40x40_S40x40 : S40x40.ShapeCasts S40x40
  inb_S1x8192x4_S1x8192x4_0_0_0 : ∀ a, (![0, 0, 0] : Fin 3 → Nat) a + S1x8192x4.size a ≤ S1x8192x4.size a
  h_S1x8192x4 : 0 < S1x8192x4.numel
  shapeCasts_S1x8192x4_S8192x4 : S1x8192x4.ShapeCasts S8192x4
  bitsLt_bf16_f32 : FTy.bits .bf16 < FTy.bits .f32
  inb_S1x8192x40_S1x8192x40_0_0_0 : ∀ a, (![0, 0, 0] : Fin 3 → Nat) a + S1x8192x40.size a ≤ S1x8192x40.size a
  h_S1x8192x40 : 0 < S1x8192x40.numel
  shapeCasts_S1x8192x40_S8192x40 : S1x8192x40.ShapeCasts S8192x40
  inb_S1x4x4_S1x4x4_0_0_0 : ∀ a, (![0, 0, 0] : Fin 3 → Nat) a + S1x4x4.size a ≤ S1x4x4.size a
  h_S1x4x4 : 0 < S1x4x4.numel
  shapeCasts_S1x4x4_S4x4 : S1x4x4.ShapeCasts S4x4
  shapeCasts_S4x4_S1x4x4 : S4x4.ShapeCasts S1x4x4
  inb_S1x4x40_S1x4x40_0_0_0 : ∀ a, (![0, 0, 0] : Fin 3 → Nat) a + S1x4x40.size a ≤ S1x4x40.size a
  h_S1x4x40 : 0 < S1x4x40.numel
  shapeCasts_S1x4x40_S4x40 : S1x4x40.ShapeCasts S4x40
  shapeCasts_S4x40_S1x4x40 : S4x40.ShapeCasts S1x4x40
  inb_S1x40x40_S1x40x40_0_0_0 : ∀ a, (![0, 0, 0] : Fin 3 → Nat) a + S1x40x40.size a ≤ S1x40x40.size a
  h_S1x40x40 : 0 < S1x40x40.numel
  shapeCasts_S1x40x40_S40x40 : S1x40x40.ShapeCasts S40x40
  shapeCasts_S40x40_S1x40x40 : S40x40.ShapeCasts S1x40x40
  dot_S8192x4_S8192x4_S4x4_0_0_1_1_n_n_wf : DotDims.WF S8192x4 S8192x4 S4x4 [0] [0] [1] [1] [] []
  dot_S8192x4_S8192x40_S4x40_0_0_1_1_n_n_wf : DotDims.WF S8192x4 S8192x40 S4x40 [0] [0] [1] [1] [] []
  dot_S8192x40_S8192x40_S40x40_0_0_1_1_n_n_wf : DotDims.WF S8192x40 S8192x40 S40x40 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x4.size a ≤ S8x131072x4.size a
  hwx0_0 : ∀ i : grid0.Coords, EltTy.bits .f32 = 32 ∨ (Rect.block (s := S8x131072x4) S1x8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x40.size a ≤ S8x131072x40.size a
  hwx0_1 : ∀ i : grid0.Coords, EltTy.bits .f32 = 32 ∨ (Rect.block (s := S8x131072x40) S1x8192x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4.size a ≤ S8x4x4.size a
  hwx0_2 : ∀ i : grid0.Coords, EltTy.bits .f32 = 32 ∨ (Rect.block (s := S8x4x4) S1x4x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x40.size a ≤ S8x4x40.size a
  hwx0_3 : ∀ i : grid0.Coords, EltTy.bits .f32 = 32 ∨ (Rect.block (s := S8x4x40) S1x4x40.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x40x40.size a ≤ S8x40x40.size a
  hwx0_4 : ∀ i : grid0.Coords, EltTy.bits .f32 = 32 ∨ (Rect.block (s := S8x40x40) S1x40x40.size (cc0_transform_4 i) (hinb0_4 i)).WholeWords (EltTy.packing .f32)

variable [Facts₀]

def dot_S8192x4_S8192x4_S4x4_0_0_1_1_n_n : DotDims S8192x4 S8192x4 S4x4 where
  lhsContracting := [0]
  rhsContracting := [0]
  lhsNonContracting := [1]
  rhsNonContracting := [1]
  lhsBatch := []
  rhsBatch := []
  wf := dot_S8192x4_S8192x4_S4x4_0_0_1_1_n_n_wf
def dot_S8192x4_S8192x40_S4x40_0_0_1_1_n_n : DotDims S8192x4 S8192x40 S4x40 where
  lhsContracting := [0]
  rhsContracting := [0]
  lhsNonContracting := [1]
  rhsNonContracting := [1]
  lhsBatch := []
  rhsBatch := []
  wf := dot_S8192x4_S8192x40_S4x40_0_0_1_1_n_n_wf
def dot_S8192x40_S8192x40_S40x40_0_0_1_1_n_n : DotDims S8192x40 S8192x40 S40x40 where
  lhsContracting := [0]
  rhsContracting := [0]
  lhsNonContracting := [1]
  rhsNonContracting := [1]
  lhsBatch := []
  rhsBatch := []
  wf := dot_S8192x40_S8192x40_S40x40_0_0_1_1_n_n_wf

abbrev win0_0 : Pipeline.Window sig grid0 :=
  Pipeline.Window.ofSpec (Memref.whole main_call0_v1) S1x8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x8192x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S1x4x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S1x4x40.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_2) S1x40x40.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x256x512x40 : Shape := ⟨4, ![8, 256, 512, 40]⟩
abbrev S8x256x512x4 : Shape := ⟨4, ![8, 256, 512, 4]⟩
abbrev S8x131072x40 : Shape := ⟨3, ![8, 131072, 40]⟩
abbrev S8x131072x4 : Shape := ⟨3, ![8, 131072, 4]⟩
abbrev S8x4x4 : Shape := ⟨3, ![8, 4, 4]⟩
abbrev S8x4x40 : Shape := ⟨3, ![8, 4, 40]⟩
abbrev S8x40x40 : Shape := ⟨3, ![8, 40, 40]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x256x512x40, .f32⟩
  | .hbm, ⟨1, _⟩ => ⟨S8x256x512x4, .f32⟩
  | .hbm, ⟨2, _⟩ => ⟨S8x131072x40, .f32⟩
  | .hbm, ⟨3, _⟩ => ⟨S8x131072x4, .f32⟩
  | .hbm, ⟨4, _⟩ => ⟨S8x4x4, .f32⟩
  | .hbm, ⟨5, _⟩ => ⟨S8x4x40, .f32⟩
  | .hbm, ⟨6, _⟩ => ⟨S8x40x40, .f32⟩
  | .hbm, ⟨7, _⟩ => ⟨S8x4x4, .f32⟩
  | .hbm, ⟨8, _⟩ => ⟨S_, .f32⟩
  | .hbm, ⟨9, _⟩ => ⟨S_, .f32⟩
  | .hbm, ⟨10, _⟩ => ⟨S8x4x40, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x40x40, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S8x256x512x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  shapeCasts_S8x256x512x40_S8x131072x40 : S8x256x512x40.ShapeCasts S8x131072x40
  shapeCasts_S8x256x512x4_S8x131072x4 : S8x256x512x4.ShapeCasts S8x131072x4
  reducesTo_S8x4x4_S_d0_1_2 : S8x4x4.ReducesTo [0, 1, 2] S_
  h_S_ : 0 < S_.numel
  reducesTo_S8x4x40_S_d0_1_2 : S8x4x40.ReducesTo [0, 1, 2] S_
  reducesTo_S8x40x40_S_d0_1_2 : S8x40x40.ReducesTo [0, 1, 2] S_
  dot_S8x131072x4_S8x131072x4_S8x4x4_1_1_2_2_0_0_wf : DotDims.WF S8x131072x4 S8x131072x4 S8x4x4 [1] [1] [2] [2] [0] [0]
  dot_S8x131072x4_S8x131072x40_S8x4x40_1_1_2_2_0_0_wf : DotDims.WF S8x131072x4 S8x131072x40 S8x4x40 [1] [1] [2] [2] [0] [0]
  dot_S8x131072x40_S8x131072x40_S8x40x40_1_1_2_2_0_0_wf : DotDims.WF S8x131072x40 S8x131072x40 S8x40x40 [1] [1] [2] [2] [0] [0]

variable [Facts₀]

def dot_S8x131072x4_S8x131072x4_S8x4x4_1_1_2_2_0_0 : DotDims S8x131072x4 S8x131072x4 S8x4x4 where
  lhsContracting := [1]
  rhsContracting := [1]
  lhsNonContracting := [2]
  rhsNonContracting := [2]
  lhsBatch := [0]
  rhsBatch := [0]
  wf := dot_S8x131072x4_S8x131072x4_S8x4x4_1_1_2_2_0_0_wf
def dot_S8x131072x4_S8x131072x40_S8x4x40_1_1_2_2_0_0 : DotDims S8x131072x4 S8x131072x40 S8x4x40 where
  lhsContracting := [1]
  rhsContracting := [1]
  lhsNonContracting := [2]
  rhsNonContracting := [2]
  lhsBatch := [0]
  rhsBatch := [0]
  wf := dot_S8x131072x4_S8x131072x40_S8x4x40_1_1_2_2_0_0_wf
def dot_S8x131072x40_S8x131072x40_S8x40x40_1_1_2_2_0_0 : DotDims S8x131072x40 S8x131072x40 S8x40x40 where
  lhsContracting := [1]
  rhsContracting := [1]
  lhsNonContracting := [2]
  rhsNonContracting := [2]
  lhsBatch := [0]
  rhsBatch := [0]
  wf := dot_S8x131072x40_S8x131072x40_S8x40x40_1_1_2_2_0_0_wf

class Facts : Prop extends Facts₀ where

variable [Facts]
-- ==== Proof.GramSpec.lean ====
/-
  The mathematics both programs compute, stated once over plain arrays.

  For arrays X : [8, 131072, A] and Y : [8, 131072, B] the batched Gram array is
      gram X Y [b, p, q] = Σ_{n < 131072} X[b, n, p] · Y[b, n, q].
  The long axis splits into 16 tiles of 8192 rows, n = 8192·k + r, so the same number is the sum over the
  tiles of the tile Gram sums (tileGram): a regrouping of one finite sum, valid in any commutative additive
  monoid, the extended reals among them (no finiteness of the entries is needed).
  The scalar both programs return is one fixed function (tail) of the three Gram arrays of the two inputs:
      ((Σ a² − 2 · Σ b²) + Σ c²) / 2^20.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.GramSpec

open Idealize.ShloMosaic Idealize.ShloMosaic.ValueIdx

/-- A batch of 8 matrices with 131072 rows and A columns. -/
abbrev Rows (A : Nat) : Shape := ⟨3, ![8, 131072, A]⟩
/-- A batch of 8 matrices A × B. -/
abbrev Sq (A B : Nat) : Shape := ⟨3, ![8, A, B]⟩
/-- The scalar shape. -/
abbrev Sc : Shape := ⟨0, ![]⟩

/-- Row 8192·k + r of the long axis, from the tile k and the row r inside the tile. -/
abbrev rowOf (k : Fin 16) (r : Fin 8192) : Fin 131072 :=
  ⟨8192 * k.val + r.val, by have := k.isLt; have := r.isLt; omega⟩

/-- One entry of the Gram array: Σ_n X[b,n,p] · Y[b,n,q]. -/
def gramAt {A B : Nat} (X : (Rows A).Idx → EReal) (Y : (Rows B).Idx → EReal) (b : Fin 8) (p : Fin A) (q : Fin B) : EReal :=
  ∑ n : Fin 131072, X (ix3 b n p) * Y (ix3 b n q)

/-- The same sum over the 8192 rows of tile k only. -/
def tileGram {A B : Nat} (X : (Rows A).Idx → EReal) (Y : (Rows B).Idx → EReal) (b : Fin 8) (k : Fin 16) (p : Fin A) (q : Fin B) : EReal :=
  ∑ r : Fin 8192, X (ix3 b (rowOf k r) p) * Y (ix3 b (rowOf k r) q)

/-- The Gram array, index by index. -/
def gram {A B : Nat} (X : (Rows A).Idx → EReal) (Y : (Rows B).Idx → EReal) : (Sq A B).Idx → EReal :=
  fun j => gramAt X Y (j 0) (j 1) (j 2)

/-- The pair (tile, row in tile) and the row 8192·k + r name the same thing. -/
def rowEquiv : Fin 16 × Fin 8192 ≃ Fin 131072 := finProdFinEquiv

theorem rowEquiv_apply (k : Fin 16) (r : Fin 8192) : rowEquiv (k, r) = rowOf k r := by
  apply Fin.ext
  show r.val + 8192 * k.val = 8192 * k.val + r.val
  omega

/-- A sum over the long axis is the sum over the tiles of the sums over each tile's rows. -/
theorem sum_rows {M : Type*} [AddCommMonoid M] (f : Fin 131072 → M) :
    ∑ n : Fin 131072, f n = ∑ k : Fin 16, ∑ r : Fin 8192, f (rowOf k r) := by
  rw [← Equiv.sum_comp rowEquiv f, Fintype.sum_prod_type]
  exact Finset.sum_congr rfl fun k _ => Finset.sum_congr rfl fun r _ => by rw [rowEquiv_apply]

/-- The Gram entry is the sum of the sixteen tile Gram entries. -/
theorem gramAt_eq_sum_tiles {A B : Nat} (X : (Rows A).Idx → EReal) (Y : (Rows B).Idx → EReal) (b : Fin 8) (p : Fin A) (q : Fin B) :
    gramAt X Y b p q = ∑ k : Fin 16, tileGram X Y b k p q := by
  unfold gramAt tileGram
  exact sum_rows fun n => X (ix3 b n p) * Y (ix3 b n q)

/-- The tile Gram entry with the batch and the tile given as naturals (zero outside their ranges), so that sums over
    consecutive grid points can be written over ranges of naturals. -/
def tileNN {A B : Nat} (X : (Rows A).Idx → EReal) (Y : (Rows B).Idx → EReal) (p : Fin A) (q : Fin B) (b s : Nat) : EReal :=
  if h : b < 8 ∧ s < 16 then tileGram X Y ⟨b, h.1⟩ ⟨s, h.2⟩ p q else 0

/-- Over the sixteen tiles of a batch the tile entries add up to the Gram entry. -/
theorem sum_tileNN {A B : Nat} (X : (Rows A).Idx → EReal) (Y : (Rows B).Idx → EReal) (p : Fin A) (q : Fin B) (b : Fin 8) :
    ∑ s ∈ Finset.range 16, tileNN X Y p q b.val s = gramAt X Y b p q := by
  rw [Finset.sum_range, gramAt_eq_sum_tiles]
  exact Finset.sum_congr rfl fun s _ => by unfold tileNN; rw [dif_pos ⟨b.isLt, s.isLt⟩]

/-- A running quantity that is set to its step's addend at the first of every sixteen consecutive steps and increased
    by its step's addend at every other step holds, after step n, the sum of the addends of the steps since the last
    reset: steps 16·(n / 16) … n. By induction on the step. -/
theorem run_sum {N : Nat} {ι : Type*} {M : Type*} [AddCommMonoid M] (acc : (n : Nat) → n < N → ι → M) (T : Nat → Nat → ι → M)
    (hfirst : ∀ (n : Nat) (h : n < N), n % 16 = 0 → ∀ i, acc n h i = T (n / 16) (n % 16) i)
    (hlater : ∀ (n : Nat) (h : n + 1 < N), ¬(n + 1) % 16 = 0 →
      ∀ i, acc (n + 1) h i = acc n (Nat.lt_of_succ_lt h) i + T ((n + 1) / 16) ((n + 1) % 16) i) :
    ∀ (n : Nat) (h : n < N) (i : ι), acc n h i = ∑ s ∈ Finset.range (n % 16 + 1), T (n / 16) s i
  | 0, h, i => by
    rw [hfirst 0 h (Nat.zero_mod 16) i, Nat.zero_mod, Finset.sum_range_one]
  | n + 1, h, i => by
    by_cases h0 : (n + 1) % 16 = 0
    · rw [hfirst (n + 1) h h0 i, h0, Finset.sum_range_one]
    · have e1 : (n + 1) / 16 = n / 16 := by omega
      have e2 : (n + 1) % 16 = n % 16 + 1 := by omega
      rw [hlater n h h0 i, run_sum acc T hfirst hlater n (Nat.lt_of_succ_lt h) i, e1, e2,
        Finset.sum_range_succ _ (n % 16 + 1)]

/-- What both programs do with the three Gram arrays: the sums of their squares combined,
    ((Σ a² − 2 · Σ b²) + Σ c²) / 2^20, spelt with the host operations both programs print. -/
def tail {F : FTy → Type} [FloatOps F]
    (h1 : (Sq 4 4).ReducesTo [0, 1, 2] Sc) (h2 : (Sq 4 40).ReducesTo [0, 1, 2] Sc) (h3 : (Sq 40 40).ReducesTo [0, 1, 2] Sc)
    (hS : 0 < Sc.numel)
    (a : FVec F (Sq 4 4) .f32) (b : FVec F (Sq 4 40) .f32) (c : FVec F (Sq 40 40) .f32) : FVec F Sc .f32 :=
  Host.divf
    (addf
      (subf (Host.reduceAdd (mulf a a) (constant (F := F) Sc .f32 0x00000000#32) h1 hS)
        (mulf (constant (F := F) Sc .f32 0x40000000#32)
          (Host.reduceAdd (mulf b b) (constant (F := F) Sc .f32 0x00000000#32) h2 hS)))
      (Host.reduceAdd (mulf c c) (constant (F := F) Sc .f32 0x00000000#32) h3 hS))
    (constant (F := F) Sc .f32 0x49800000#32)

end Cert.GramSpec

end
-- ==== Proof.RefGram.lean ====
/-
  The reference program read as mathematics.

  Its three contractions over the long axis (of the two reshaped inputs V : [8, 131072, 4] and
  E : [8, 131072, 40]) are the three Gram arrays gram V V, gram V E, gram E E: each entry is
      Σ_{n < 131072} X[b, n, p] · Y[b, n, q],
  the contraction reading the left operand at (b, n, p) and the right operand at (b, n, q).
  What the program does with the three arrays afterwards is the fixed scalar function tail,
      ((Σ a² − 2 · Σ b²) + Σ c²) / 2^20,
  operation for operation.
-/
import proofs.«155247_j24713241821608_1_alg».proof.Proof.Gen.ReferenceIdeal.Read
import proofs.«155247_j24713241821608_1_alg».proof.Proof.GramSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.GramSpec

/-! ## Where each contraction reads its operands

For the output index j = (b, p, q) and the contracted row n, the left operand is read at (b, n, p)
and the right operand at (b, n, q). -/

theorem lidx_v2_eq (j : S8x4x4.Idx) (k : Fin 131072) : lidx_main_v2 j k = ix3 (j 0) k (j 1) :=
  funext fun a => by match a with | ⟨0, _⟩ => rfl | ⟨1, _⟩ => rfl | ⟨2, _⟩ => rfl

theorem ridx_v2_eq (j : S8x4x4.Idx) (k : Fin 131072) : ridx_main_v2 j k = ix3 (j 0) k (j 2) :=
  funext fun a => by match a with | ⟨0, _⟩ => rfl | ⟨1, _⟩ => rfl | ⟨2, _⟩ => rfl

theorem lidx_v3_eq (j : S8x4x40.Idx) (k : Fin 131072) : lidx_main_v3 j k = ix3 (j 0) k (j 1) :=
  funext fun a => by match a with | ⟨0, _⟩ => rfl | ⟨1, _⟩ => rfl | ⟨2, _⟩ => rfl

theorem ridx_v3_eq (j : S8x4x40.Idx) (k : Fin 131072) : ridx_main_v3 j k = ix3 (j 0) k (j 2) :=
  funext fun a => by match a with | ⟨0, _⟩ => rfl | ⟨1, _⟩ => rfl | ⟨2, _⟩ => rfl

theorem lidx_v4_eq (j : S8x40x40.Idx) (k : Fin 131072) : lidx_main_v4 j k = ix3 (j 0) k (j 1) :=
  funext fun a => by match a with | ⟨0, _⟩ => rfl | ⟨1, _⟩ => rfl | ⟨2, _⟩ => rfl

theorem ridx_v4_eq (j : S8x40x40.Idx) (k : Fin 131072) : ridx_main_v4 j k = ix3 (j 0) k (j 2) :=
  funext fun a => by match a with | ⟨0, _⟩ => rfl | ⟨1, _⟩ => rfl | ⟨2, _⟩ => rfl

/-! ## The three contractions are the three Gram arrays -/

/-- VᵀV: the contraction of the reshaped assignments with themselves. -/
theorem ref_vv (x1 : (⟨S8x256x512x4, .f32⟩ : BufTy).Contents (Elt Ideal)) :
    val_main_v2 (F := Ideal) x1 = gram (val_main_v1 (F := Ideal) x1) (val_main_v1 (F := Ideal) x1) := by
  funext j
  rw [val_main_v2_apply]
  generalize val_main_v1 (F := Ideal) x1 = V
  unfold gram gramAt
  exact Finset.sum_congr rfl fun k _ => by rw [lidx_v2_eq, ridx_v2_eq]; rfl

/-- VᵀE: the contraction of the reshaped assignments with the reshaped embeddings. -/
theorem ref_ve (x0 : (⟨S8x256x512x40, .f32⟩ : BufTy).Contents (Elt Ideal))
    (x1 : (⟨S8x256x512x4, .f32⟩ : BufTy).Contents (Elt Ideal)) :
    val_main_v3 (F := Ideal) x0 x1 = gram (val_main_v1 (F := Ideal) x1) (val_main_v0 (F := Ideal) x0) := by
  funext j
  rw [val_main_v3_apply]
  generalize val_main_v1 (F := Ideal) x1 = V
  generalize val_main_v0 (F := Ideal) x0 = E
  unfold gram gramAt
  exact Finset.sum_congr rfl fun k _ => by rw [lidx_v3_eq, ridx_v3_eq]; rfl

/-- EᵀE: the contraction of the reshaped embeddings with themselves. -/
theorem ref_ee (x0 : (⟨S8x256x512x40, .f32⟩ : BufTy).Contents (Elt Ideal)) :
    val_main_v4 (F := Ideal) x0 = gram (val_main_v0 (F := Ideal) x0) (val_main_v0 (F := Ideal) x0) := by
  funext j
  rw [val_main_v4_apply]
  generalize val_main_v0 (F := Ideal) x0 = E
  unfold gram gramAt
  exact Finset.sum_congr rfl fun k _ => by rw [lidx_v4_eq, ridx_v4_eq]; rfl

/-! ## After the contractions: the scalar tail -/

/-- The program's remaining operations (squares, the three total sums, the combination and the
    division by 2^20) are tail applied to the three contractions: the same operations in the same order. -/
theorem ref_tail (x0 : (⟨S8x256x512x40, .f32⟩ : BufTy).Contents (Elt Ideal))
    (x1 : (⟨S8x256x512x4, .f32⟩ : BufTy).Contents (Elt Ideal)) :
    val_main_v14 (F := Ideal) x0 x1
      = tail (F := Ideal) reducesTo_S8x4x4_S_d0_1_2 reducesTo_S8x4x40_S_d0_1_2 reducesTo_S8x40x40_S_d0_1_2 h_S_
          (val_main_v2 (F := Ideal) x1) (val_main_v3 (F := Ideal) x0 x1) (val_main_v4 (F := Ideal) x0) := by
  unfold val_main_v14 val_main_v13 val_main_v12 val_main_v11 val_main_v10 val_main_v9 val_main_v8 val_main_v7
    val_main_v6 val_main_v5 val_main_cst val_main_cst_0 val_main_cst_1 val_main_cst_2 val_main_cst_3 tail
  generalize val_main_v2 (F := Ideal) x1 = a
  generalize val_main_v3 (F := Ideal) x0 x1 = b
  generalize val_main_v4 (F := Ideal) x0 = c
  rfl

/-- The reference's result is tail of the three Gram arrays of the reshaped inputs. -/
theorem ref_result (x0 : (⟨S8x256x512x40, .f32⟩ : BufTy).Contents (Elt Ideal))
    (x1 : (⟨S8x256x512x4, .f32⟩ : BufTy).Contents (Elt Ideal)) :
    val_main_v14 (F := Ideal) x0 x1
      = tail (F := Ideal) reducesTo_S8x4x4_S_d0_1_2 reducesTo_S8x4x40_S_d0_1_2 reducesTo_S8x40x40_S_d0_1_2 h_S_
          (gram (val_main_v1 (F := Ideal) x1) (val_main_v1 (F := Ideal) x1))
          (gram (val_main_v1 (F := Ideal) x1) (val_main_v0 (F := Ideal) x0))
          (gram (val_main_v0 (F := Ideal) x0) (val_main_v0 (F := Ideal) x0)) := by
  rw [ref_tail, ref_vv, ref_ve, ref_ee]

end Cert.ReferenceIdeal.RefValue

end
-- ==== Proof.KernelBlocks.lean ====
/-
  The two input windows read through their blocks.

  Grid point t = 16·b + k (b the batch, k the tile) stages rows 8192·k … 8192·k + 8191 of batch b of each input
  array: entry (0, r, p) of the block is entry (b, 8192·k + r, p) of the array. The arrays the windows read are the
  two inputs re-laid to [8, 131072, ·] by the host before the launch.
-/
import proofs.«155247_j24713241821608_1_alg».proof.Proof.Gen.KernelIdeal.Frame
import proofs.«155247_j24713241821608_1_alg».proof.Proof.GramSpec
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.GramSpec

variable {F : FTy → Type} [FloatOps F]
variable (m : (ℓ : Loc nD τ sig) → Buf (Elt F) ℓ)

/-- The assignments array as the launch finds it, [8, 131072, 4], and its block at a grid point, [1, 8192, 4]. -/
abbrev varr (c : Dev nD) : Vec F S8x131072x4 .f32 := V m c main_call0_v1
abbrev vblk (c : Dev nD) (t : Fin cfg0.N) : Vec F S1x8192x4 .f32 := iblk m c 0 t
/-- The embeddings array as the launch finds it, [8, 131072, 40], and its block at a grid point, [1, 8192, 40]. -/
abbrev earr (c : Dev nD) : Vec F S8x131072x40 .f32 := V m c main_call0_v0
abbrev eblk (c : Dev nD) (t : Fin cfg0.N) : Vec F S1x8192x40 .f32 := iblk m c 1 t

/-- The batch and the tile of a grid point: t = 16·b + k. -/
abbrev batchOf (t : Fin cfg0.N) : Fin 8 := ⟨t.val / 16, by have := t.isLt; have hN : cfg0.N = 128 := N_0; omega⟩
abbrev tileOf (t : Fin cfg0.N) : Fin 16 := ⟨t.val % 16, Nat.mod_lt _ (by decide)⟩

/-- Both windows' index maps send the point to (batch, tile, 0): decided once over the grid. -/
theorem index_v : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index_e : ∀ t : Fin cfg0.N, win0_1.index t 0 = t.val / 16 ∧ win0_1.index t 1 = t.val % 16 ∧ win0_1.index t 2 = 0 :=
  (by decide +kernel : ∀ t : Fin grid0.N, win0_1.index t 0 = t.val / 16 ∧ win0_1.index t 1 = t.val % 16 ∧ win0_1.index t 2 = 0)

/-- Entry (0, r, p) of the assignments block at point t is entry (b, 8192·k + r, p) of the array. -/
theorem vblk_apply (c : Dev nD) (t : Fin cfg0.N) (r : Fin 8192) (p : Fin 4) :
    vblk m c t (ix3 (0 : Fin 1) r p) = varr m c (ix3 (batchOf t) (rowOf (tileOf t) r) p) := by
  obtain ⟨i0, i1, i2⟩ := index_v t
  show iblk m c 0 t (ix3 (0 : Fin 1) r p) = V m c main_call0_v1 (ix3 (batchOf t) (rowOf (tileOf t) r) p)
  unfold iblk
  rw [View.read_apply]
  show V m c main_call0_v1 _ = V m c main_call0_v1 _
  congr 1
  funext a
  apply Fin.ext
  match a with
  | ⟨0, _⟩ => show win0_0.index t 0 * 1 + 1 * 0 = t.val / 16; rw [i0]; omega
  | ⟨1, _⟩ => show win0_0.index t 1 * 8192 + 1 * r.val = 8192 * (t.val % 16) + r.val; rw [i1]; omega
  | ⟨2, _⟩ => show win0_0.index t 2 * 4 + 1 * p.val = p.val; rw [i2]; omega

/-- Entry (0, r, q) of the embeddings block at point t is entry (b, 8192·k + r, q) of the array. -/
theorem eblk_apply (c : Dev nD) (t : Fin cfg0.N) (r : Fin 8192) (q : Fin 40) :
    eblk m c t (ix3 (0 : Fin 1) r q) = earr m c (ix3 (batchOf t) (rowOf (tileOf t) r) q) := by
  obtain ⟨i0, i1, i2⟩ := index_e t
  show iblk m c 1 t (ix3 (0 : Fin 1) r q) = V m c main_call0_v0 (ix3 (batchOf t) (rowOf (tileOf t) r) q)
  unfold iblk
  rw [View.read_apply]
  show V m c main_call0_v0 _ = V m c main_call0_v0 _
  congr 1
  funext a
  apply Fin.ext
  match a with
  | ⟨0, _⟩ => show win0_1.index t 0 * 1 + 1 * 0 = t.val / 16; rw [i0]; omega
  | ⟨1, _⟩ => show win0_1.index t 1 * 8192 + 1 * r.val = 8192 * (t.val % 16) + r.val; rw [i1]; omega
  | ⟨2, _⟩ => show win0_1.index t 2 * 40 + 1 * q.val = q.val; rw [i2]; omega

/-- The arrays the windows read are the inputs re-laid by the host: row-major [8, 256, 512, ·] as [8, 131072, ·]. -/
theorem varr_eq (c : Dev nD) :
    varr m c = shapeCast S8x131072x4 (m ((c : Thread nD τ).loc main_arg1)) shapeCasts_S8x256x512x4_S8x131072x4 := by
  show StableHlo.after hostOps0 (fun b => m (c, b)) (Proc.devRef .tc main_call0_v1) = _
  after_results
  rfl
theorem earr_eq (c : Dev nD) :
    earr m c = shapeCast S8x131072x40 (m ((c : Thread nD τ).loc main_arg0)) shapeCasts_S8x256x512x40_S8x131072x40 := by
  show StableHlo.after hostOps0 (fun b => m (c, b)) (Proc.devRef .tc main_call0_v0) = _
  after_results
  rfl

end Cert.KernelIdeal.Blocks

end
-- ==== Proof.KernelPieces.lean ====
/-
  What one run of the kernel body leaves behind, case by case, as pure functions of what it found.

  The body keeps three accumulators (for VᵀV, VᵀE and EᵀE of the current batch). At the first tile of a batch it
  stores zero into each and then adds the tile's product to what it reads back; at every later tile it adds the tile's
  product to what the tile before left; at the last tile it also copies the three accumulators, with the unit batch
  axis put back, into the three output blocks. Each store covers its whole buffer, so what a buffer holds afterwards is
  the payload of the last store into it, and a load of a whole buffer reads its contents.
-/
import proofs.«155247_j24713241821608_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

/-- The zero offsets of a rank-2 and of a rank-3 buffer, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1x8192x4 .f32) (h2 : a2.IsWhole) (a3 : Memref sig .tc .vmem S1x8192x40 .f32) (h3 : a3.IsWhole)
  (a4 : Memref sig .tc .vmem S1x4x4 .f32) (h4 : a4.IsWhole) (a5 : Memref sig .tc .vmem S1x4x40 .f32) (h5 : a5.IsWhole)
  (a6 : Memref sig .tc .vmem S1x40x40 .f32) (h6 : a6.IsWhole) (a7 : Memref sig .tc .vmem S4x4 .f32) (h7 : a7.IsWhole)
  (a8 : Memref sig .tc .vmem S4x40 .f32) (h8 : a8.IsWhole) (a9 : Memref sig .tc .vmem S40x40 .f32) (h9 : a9.IsWhole)
  (x0 : Vec F S1x8192x4 .f32) (x1 : Vec F S1x8192x40 .f32)

set_option hygiene false in
/-- The one argument every lemma below uses. The buffer's contents after the case's run are its covering pieces read
    back (`cov`), which is the canonical form of the piece list; the list's last store covers the whole buffer, so the
    canonical form is that store's payload (`last`); and inside the payload every load of a whole buffer reads the
    buffer's contents — for an accumulator zeroed earlier in the same run, the zero just stored. -/
local macro "last_store_is_payload " out:ident run:ident " covered_by " cov:term " last " last:term : tactic =>
  `(tactic| (
    unfold $out
    rw [View.read_writes_eq_canon _ _ _ $cov]
    unfold $run
    dsimp only
    sl_unfold_words
    rw [$last:term]
    simp only [View.readAt_eq_ld, h2.read_unread, h3.read_unread, h7.read_unread, h8.read_unread, h9.read_unread,
      View.ld_unit_zero (S := S1x8192x4) hz3, View.ld_unit_zero (S := S1x8192x40) hz3,
      View.ld_unit_zero (S := S4x4) hz2, View.ld_unit_zero (S := S4x40) hz2, View.ld_unit_zero (S := S40x40) hz2,
      View.readCov_unit_zero (S := S4x4) _ hz2, View.readCov_unit_zero (S := S4x40) _ hz2,
      View.readCov_unit_zero (S := S40x40) _ hz2]))

/-! ## First tile of a batch: zero, then the tile's product added -/

section First
variable (hc0 : cond0_0 i) (hc1 : ¬cond0_1 i)

theorem accVV_first :
    sout0_A_0 c i a2 h2 a3 h3 a4 h4 a5 h5 a6 h6 a7 h7 a8 h8 a9 h9 hc0 hc1 x0 x1 = k0_pay9 x0 (k0_pay4 (F := F)) := by
  last_store_is_payload sout0_A_0 kernelRun0_A
    covered_by (scover0_A_0 c i a2 h2 a3 h3 a4 h4 a5 h5 a6 h6 a7 h7 a8 h8 a9 h9 hc0 hc1 x0 x1)
    last (View.canon_cons_unit_zero (S := S4x4) hz2)

theorem accVE_first :
    sout0_A_1 c i a2 h2 a3 h3 a4 h4 a5 h5 a6 h6 a7 h7 a8 h8 a9 h9 hc0 hc1 x0 x1 = k0_pay10 x0 x1 (k0_pay5 (F := F)) := by
  last_store_is_payload sout0_A_1 kernelRun0_A
    covered_by (scover0_A_1 c i a2 h2 a3 h3 a4 h4 a5 h5 a6 h6 a7 h7 a8 h8 a9 h9 hc0 hc1 x0 x1)
    last (View.canon_cons_unit_zero (S := S4x40) hz2)

theorem accEE_first :
    sout0_A_2 c i a2 h2 a3 h3 a4 h4 a5 h5 a6 h6 a7 h7 a8 h8 a9 h9 hc0 hc1 x0 x1 = k0_pay11 x1 (k0_pay6 (F := F)) := by
  last_store_is_payload sout0_A_2 kernelRun0_A
    covered_by (scover0_A_2 c i a2 h2 a3 h3 a4 h4 a5 h5 a6 h6 a7 h7 a8 h8 a9 h9 hc0 hc1 x0 x1)
    last (View.canon_cons_unit_zero (S := S40x40) hz2)

end First

variable (xs0 : Vec F S4x4 .f32) (xs1 : Vec F S4x40 .f32) (xs2 : Vec F S40x40 .f32)

/-! ## A middle tile: the tile's product added to what the tile before left -/

section Middle
variable (hc0 : ¬cond0_0 i) (hc1 : ¬cond0_1 i)

theorem accVV_mid :
    sout0_B_0 c i a2 h2 a3 h3 a4 h4 a5 h5 a6 h6 a7 h7 a8 h8 a9 h9 hc0 hc1 x0 x1 xs0 xs1 xs2 = k0_pay9 x0 xs0 := by
  last_store_is_payload sout0_B_0 kernelRun0_B
    covered_by (scover0_B_0 c i a2 h2 a3 h3 a4 h4 a5 h5 a6 h6 a7 h7 a8 h8 a9 h9 hc0 hc1 x0 x1 xs0 xs1 xs2)
    last (View.canon_unit_zero hz2)

theorem accVE_mid :
    sout0_B_1 c i a2 h2 a3 h3 a4 h4 a5 h5 a6 h6 a7 h7 a8 h8 a9 h9 hc0 hc1 x0 x1 xs0 xs1 xs2 = k0_pay10 x0 x1 xs1 := by
  last_store_is_payload sout0_B_1 kernelRun0_B
    covered_by (scover0_B_1 c i a2 h2 a3 h3 a4 h4 a5 h5 a6 h6 a7 h7 a8 h8 a9 h9 hc0 hc1 x0 x1 xs0 xs1 xs2)
    last (View.canon_unit_zero hz2)

theorem accEE_mid :
    sout0_B_2 c i a2 h2 a3 h3 a4 h4 a5 h5 a6 h6 a7 h7 a8 h8 a9 h9 hc0 hc1 x0 x1 xs0 xs1 xs2 = k0_pay11 x1 xs2 := by
  last_store_is_payload sout0_B_2 kernelRun0_B
    covered_by (scover0_B_2 c i a2 h2 a3 h3 a4 h4 a5 h5 a6 h6 a7 h7 a8 h8 a9 h9 hc0 hc1 x0 x1 xs0 xs1 xs2)
    last (View.canon_unit_zero hz2)

end Middle

/-! ## The last tile: the same, and the accumulators copied into the output blocks -/

section Last
variable (hc0 : ¬cond0_0 i) (hc1 : cond0_1 i)

theorem accVV_last :
    sout0_C_0 c i a2 h2 a3 h3 a4 h4 a5 h5 a6 h6 a7 h7 a8 h8 a9 h9 hc0 hc1 x0 x1 xs0 xs1 xs2 = k0_pay9 x0 xs0 := by
  last_store_is_payload sout0_C_0 kernelRun0_C
    covered_by (scover0_C_0 c i a2 h2 a3 h3 a4 h4 a5 h5 a6 h6 a7 h7 a8 h8 a9 h9 hc0 hc1 x0 x1 xs0 xs1 xs2)
    last (View.canon_unit_zero hz2)

theorem accVE_last :
    sout0_C_1 c i a2 h2 a3 h3 a4 h4 a5 h5 a6 h6 a7 h7 a8 h8 a9 h9 hc0 hc1 x0 x1 xs0 xs1 xs2 = k0_pay10 x0 x1 xs1 := by
  last_store_is_payload sout0_C_1 kernelRun0_C
    covered_by (scover0_C_1 c i a2 h2 a3 h3 a4 h4 a5 h5 a6 h6 a7 h7 a8 h8 a9 h9 hc0 hc1 x0 x1 xs0 xs1 xs2)
    last (View.canon_unit_zero hz2)

theorem accEE_last :
    sout0_C_2 c i a2 h2 a3 h3 a4 h4 a5 h5 a6 h6 a7 h7 a8 h8 a9 h9 hc0 hc1 x0 x1 xs0 xs1 xs2 = k0_pay11 x1 xs2 := by
  last_store_is_payload sout0_C_2 kernelRun0_C
    covered_by (scover0_C_2 c i a2 h2 a3 h3 a4 h4 a5 h5 a6 h6 a7 h7 a8 h8 a9 h9 hc0 hc1 x0 x1 xs0 xs1 xs2)
    last (View.canon_unit_zero hz2)

theorem outVV_last :
    out0_C_2 c i a2 h2 a3 h3 a4 h4 a5 h5 a6 h6 a7 h7 a8 h8 a9 h9 hc0 hc1 x0 x1 xs0 xs1 xs2 = k0_pay1 (k0_pay9 x0 xs0) := by
  last_store_is_payload out0_C_2 kernelRun0_C
    covered_by (cover0_C_2 c i a2 h2 a3 h3 a4 h4 a5 h5 a6 h6 a7 h7 a8 h8 a9 h9 hc0 hc1 x0 x1 xs0 xs1 xs2)
    last (View.canon_unit_zero hz3)

theorem outVE_last :
    out0_C_3 c i a2 h2 a3 h3 a4 h4 a5 h5 a6 h6 a7 h7 a8 h8 a9 h9 hc0 hc1 x0 x1 xs0 xs1 xs2 = k0_pay2 (k0_pay10 x0 x1 xs1) := by
  last_store_is_payload out0_C_3 kernelRun0_C
    covered_by (cover0_C_3 c i a2 h2 a3 h3 a4 h4 a5 h5 a6 h6 a7 h7 a8 h8 a9 h9 hc0 hc1 x0 x1 xs0 xs1 xs2)
    last (View.canon_unit_zero hz3)

theorem outEE_last :
    out0_C_4 c i a2 h2 a3 h3 a4 h4 a5 h5 a6 h6 a7 h7 a8 h8 a9 h9 hc0 hc1 x0 x1 xs0 xs1 xs2 = k0_pay3 (k0_pay11 x1 xs2) := by
  last_store_is_payload out0_C_4 kernelRun0_C
    covered_by (cover0_C_4 c i a2 h2 a3 h3 a4 h4 a5 h5 a6 h6 a7 h7 a8 h8 a9 h9 hc0 hc1 x0 x1 xs0 xs1 xs2)
    last (View.canon_unit_zero hz3)

end Last

end Cert.KernelIdeal.Pieces

end
-- ==== Proof.KernelSteps.lean ====
/-
  One grid point's effect on the three accumulators and on the output blocks.

  Point t = 16·b + k handles tile k of batch b. At k = 0 each accumulator ends as zero plus the tile's product; at
  every other k as what point t − 1 left plus the tile's product; and at k = 15 each output block is its accumulator
  with the unit batch axis put back. These are the body's payloads of the point's two input blocks.
-/
import proofs.«155247_j24713241821608_1_alg».proof.Proof.Gen.KernelIdeal.Frame
import proofs.«155247_j24713241821608_1_alg».proof.Proof.KernelPieces
import proofs.«155247_j24713241821608_1_alg».proof.Proof.KernelBlocks

noncomputable section

open Idealize.ShloMosaic Idealize.ShloMosaic.TcCoe Idealize.SL.Sem

namespace Cert.KernelIdeal.Steps

open Cert.KernelIdeal Cert.KernelIdeal.Gen Cert.KernelIdeal.Blocks Cert.KernelIdeal.Pieces

variable {F : FTy → Type} [FloatOps F]
variable (m : (ℓ : Loc nD τ sig) → Buf (Elt F) ℓ)

/-- The three accumulators and the three output blocks after the body at point n. -/
abbrev accVV (c : Dev nD) (n : ℕ) (h : n < cfg0.N) : Vec F S4x4 .f32 := (outsAt0 m c n h).2.2.2.1
abbrev accVE (c : Dev nD) (n : ℕ) (h : n < cfg0.N) : Vec F S4x40 .f32 := (outsAt0 m c n h).2.2.2.2.1
abbrev accEE (c : Dev nD) (n : ℕ) (h : n < cfg0.N) : Vec F S40x40 .f32 := (outsAt0 m c n h).2.2.2.2.2
abbrev outVV (c : Dev nD) (n : ℕ) (h : n < cfg0.N) : Vec F S1x4x4 .f32 := (outsAt0 m c n h).1
abbrev outVE (c : Dev nD) (n : ℕ) (h : n < cfg0.N) : Vec F S1x4x40 .f32 := (outsAt0 m c n h).2.1
abbrev outEE (c : Dev nD) (n : ℕ) (h : n < cfg0.N) : Vec F S1x40x40 .f32 := (outsAt0 m c n h).2.2.1

/-- At a batch's first tile each accumulator is the tile's product added to the zero just stored. -/
theorem first_tile (c : Dev nD) (t : Fin cfg0.N) (h0 : t.val % 16 = 0) :
    accVV m c t.val t.isLt = k0_pay9 (vblk m c t) (k0_pay4 (F := F))
    ∧ accVE m c t.val t.isLt = k0_pay10 (vblk m c t) (eblk m c t) (k0_pay5 (F := F))
    ∧ accEE m c t.val t.isLt = k0_pay11 (eblk m c t) (k0_pay6 (F := F)) := by
  have h1 : ¬t.val % 16 = 15 := by omega
  show (outsAt0 m c t.val t.isLt).2.2.2.1 = _ ∧ (outsAt0 m c t.val t.isLt).2.2.2.2.1 = _ ∧ (outsAt0 m c t.val t.isLt).2.2.2.2.2 = _
  rw [outsAt0_A m c t h0 h1]
  dsimp only
  exact ⟨accVV_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    accVE_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    accEE_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) ((hcond0_0 t).mpr h0) (fun h => h1 ((hcond0_1 t).mp h))⟩

/-- At every other tile each accumulator is the tile's product added to what the point before left. -/
theorem later_tile (c : Dev nD) (n : ℕ) (h : n + 1 < cfg0.N) (h0 : ¬(n + 1) % 16 = 0) :
    accVV m c (n + 1) h = k0_pay9 (vblk m c ⟨n + 1, h⟩) (accVV m c n (Nat.lt_of_succ_lt h))
    ∧ accVE m c (n + 1) h = k0_pay10 (vblk m c ⟨n + 1, h⟩) (eblk m c ⟨n + 1, h⟩) (accVE m c n (Nat.lt_of_succ_lt h))
    ∧ accEE m c (n + 1) h = k0_pay11 (eblk m c ⟨n + 1, h⟩) (accEE m c n (Nat.lt_of_succ_lt h)) := by
  show (outsAt0 m c (n + 1) h).2.2.2.1 = _ ∧ (outsAt0 m c (n + 1) h).2.2.2.2.1 = _ ∧ (outsAt0 m c (n + 1) h).2.2.2.2.2 = _
  by_cases h1 : (n + 1) % 16 = 15
  · rw [outsAt0_C m c ⟨n + 1, h⟩ h0 h1]
    dsimp only
    exact ⟨accVV_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (fun h' => h0 ((hcond0_0 ⟨n + 1, h⟩).mp h')) ((hcond0_1 ⟨n + 1, h⟩).mpr h1),
      accVE_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (fun h' => h0 ((hcond0_0 ⟨n + 1, h⟩).mp h')) ((hcond0_1 ⟨n + 1, h⟩).mpr h1),
      accEE_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (fun h' => h0 ((hcond0_0 ⟨n + 1, h⟩).mp h')) ((hcond0_1 ⟨n + 1, h⟩).mpr h1)⟩
  · rw [outsAt0_B m c ⟨n + 1, h⟩ h0 h1]
    dsimp only
    exact ⟨accVV_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (fun h' => h0 ((hcond0_0 ⟨n + 1, h⟩).mp h')) (fun h' => h1 ((hcond0_1 ⟨n + 1, h⟩).mp h')),
      accVE_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (fun h' => h0 ((hcond0_0 ⟨n + 1, h⟩).mp h')) (fun h' => h1 ((hcond0_1 ⟨n + 1, h⟩).mp h')),
      accEE_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (fun h' => h0 ((hcond0_0 ⟨n + 1, h⟩).mp h')) (fun h' => h1 ((hcond0_1 ⟨n + 1, h⟩).mp h'))⟩

/-- At a batch's last tile each output block is its accumulator with the unit batch axis put back. -/
theorem last_tile_out (c : Dev nD) (t : Fin cfg0.N) (h1 : t.val % 16 = 15) :
    outVV m c t.val t.isLt = k0_pay1 (accVV m c t.val t.isLt)
    ∧ outVE m c t.val t.isLt = k0_pay2 (accVE m c t.val t.isLt)
    ∧ outEE m c t.val t.isLt = k0_pay3 (accEE m c t.val t.isLt) := by
  have h0 : ¬t.val % 16 = 0 := by omega
  show (outsAt0 m c t.val t.isLt).1 = k0_pay1 (outsAt0 m c t.val t.isLt).2.2.2.1
    ∧ (outsAt0 m c t.val t.isLt).2.1 = k0_pay2 (outsAt0 m c t.val t.isLt).2.2.2.2.1
    ∧ (outsAt0 m c t.val t.isLt).2.2.1 = k0_pay3 (outsAt0 m c t.val t.isLt).2.2.2.2.2
  rw [outsAt0_C m c t h0 h1]
  dsimp only
  exact ⟨(outVV_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).trans
      (congrArg k0_pay1 (accVV_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).symm),
    (outVE_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).trans
      (congrArg k0_pay2 (accVE_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).symm),
    (outEE_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).trans
      (congrArg k0_pay3 (accEE_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)).symm)⟩

end Cert.KernelIdeal.Steps

end
-- ==== Proof.TileValue.lean ====
/- The tile body's stored values read at one index, at the ideal (extended-real) values.

   Each grid step adds to the three accumulators the product of the transposed tile with the tile:
   entry (p, q) of an update is the sum over the tile's 8192 rows r of x[r, p] · y[r, q]. The cast to
   the narrower float format is the identity on extended reals, the accumulator the product itself
   starts from is zero, the reset stores zero, and the write-back re-attaches the unit batch axis. -/
import proofs.«155247_j24713241821608_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-! ## The tile with its unit batch axis dropped and its format narrowed -/

/-- The 4-column tile, unit axis dropped and narrowed: entry (r, p) is the block's entry (0, r, p). -/
theorem pay7_apply (x : Vec Ideal S1x8192x4 .f32) (r : Fin 8192) (p : Fin 4) :
    k0_pay7 x (ix2 r p) = x (ix3 (0 : Fin 1) r p) := by
  unfold k0_pay7
  rw [truncf_apply, shapeCast_1ab_ab_apply]

/-- The 40-column tile likewise. -/
theorem pay8_apply (y : Vec Ideal S1x8192x40 .f32) (r : Fin 8192) (q : Fin 40) :
    k0_pay8 y (ix2 r q) = y (ix3 (0 : Fin 1) r q) := by
  unfold k0_pay8
  rw [truncf_apply, shapeCast_1ab_ab_apply]

/-! ## The 4 × 4 product: both operands contracted over their rows -/

/-- On the contracted axis the left operand reads the contraction position. -/
theorem lhs_vv_0 (i : S4x4.Idx) (k : dot_S8192x4_S8192x4_S4x4_0_0_1_1_n_n.contr.Idx) :
    (dot_S8192x4_S8192x4_S4x4_0_0_1_1_n_n.lhsIdx i k 0).val = (k ⟨0, by decide⟩).val :=
  dot_S8192x4_S8192x4_S4x4_0_0_1_1_n_n.lhsIdx_val_of_single rfl i k
/-- On the kept axis the left operand reads the result's row. -/
theorem lhs_vv_1 (i : S4x4.Idx) (k : dot_S8192x4_S8192x4_S4x4_0_0_1_1_n_n.contr.Idx) :
    (dot_S8192x4_S8192x4_S4x4_0_0_1_1_n_n.lhsIdx i k 1).val = (i 0).val := by
  unfold DotDims.lhsIdx
  rw [dif_neg (show ¬(1 : Fin S8192x4.rank) ∈ dot_S8192x4_S8192x4_S4x4_0_0_1_1_n_n.lhsBatch by decide), dif_pos (show (1 : Fin S8192x4.rank) ∈ dot_S8192x4_S8192x4_S4x4_0_0_1_1_n_n.lhsNonContracting by decide)]
  rfl
/-- On the contracted axis the right operand reads the contraction position. -/
theorem rhs_vv_0 (i : S4x4.Idx) (k : dot_S8192x4_S8192x4_S4x4_0_0_1_1_n_n.contr.Idx) :
    (dot_S8192x4_S8192x4_S4x4_0_0_1_1_n_n.rhsIdx i k 0).val = (k ⟨0, by decide⟩).val :=
  dot_S8192x4_S8192x4_S4x4_0_0_1_1_n_n.rhsIdx_val_of_single rfl i k
/-- On the kept axis the right operand reads the result's column. -/
theorem rhs_vv_1 (i : S4x4.Idx) (k : dot_S8192x4_S8192x4_S4x4_0_0_1_1_n_n.contr.Idx) :
    (dot_S8192x4_S8192x4_S4x4_0_0_1_1_n_n.rhsIdx i k 1).val = (i 1).val := by
  unfold DotDims.rhsIdx
  rw [dif_neg (show ¬(1 : Fin S8192x4.rank) ∈ dot_S8192x4_S8192x4_S4x4_0_0_1_1_n_n.rhsBatch by decide), dif_pos (show (1 : Fin S8192x4.rank) ∈ dot_S8192x4_S8192x4_S4x4_0_0_1_1_n_n.rhsNonContracting by decide)]
  rfl

/-- The product of the transposed left operand with the right one, started from zero: entry (p, q) is the
    sum over the 8192 rows r of a[r, p] · b[r, q]. -/
theorem matmul_vv_apply (a : FVec Ideal S8192x4 .bf16) (b : FVec Ideal S8192x4 .bf16) (p : Fin 4) (q : Fin 4) :
    matmul dot_S8192x4_S8192x4_S4x4_0_0_1_1_n_n none a b (constant (F := Ideal) S4x4 .f32 0x00000000#32) (ix2 p q)
      = ∑ r : Fin 8192, a (ix2 r p) * b (ix2 r q) := by
  simp only [matmul]
  rw [Ideal.matmul_constant_zero_apply, ← Equiv.sum_comp (contrEquiv1 dot_S8192x4_S8192x4_S4x4_0_0_1_1_n_n 8192 rfl rfl).symm]
  refine Finset.sum_congr rfl fun k _ => ?_
  have hk := contrEquiv1_symm_val dot_S8192x4_S8192x4_S4x4_0_0_1_1_n_n 8192 rfl rfl k
  have el : dot_S8192x4_S8192x4_S4x4_0_0_1_1_n_n.lhsIdx (ix2 p q) ((contrEquiv1 dot_S8192x4_S8192x4_S4x4_0_0_1_1_n_n 8192 rfl rfl).symm k) = ix2 k p := funext fun c => Fin.ext (by
    match c with
    | ⟨0, _⟩ => exact (lhs_vv_0 _ _).trans hk
    | ⟨1, _⟩ => exact lhs_vv_1 _ _)
  have er : dot_S8192x4_S8192x4_S4x4_0_0_1_1_n_n.rhsIdx (ix2 p q) ((contrEquiv1 dot_S8192x4_S8192x4_S4x4_0_0_1_1_n_n 8192 rfl rfl).symm k) = ix2 k q := funext fun c => Fin.ext (by
    match c with
    | ⟨0, _⟩ => exact (rhs_vv_0 _ _).trans hk
    | ⟨1, _⟩ => exact rhs_vv_1 _ _)
  rw [el, er]

/-! ## The 4 × 40 product -/

/-- On the contracted axis the left operand reads the contraction position. -/
theorem lhs_ve_0 (i : S4x40.Idx) (k : dot_S8192x4_S8192x40_S4x40_0_0_1_1_n_n.contr.Idx) :
    (dot_S8192x4_S8192x40_S4x40_0_0_1_1_n_n.lhsIdx i k 0).val = (k ⟨0, by decide⟩).val :=
  dot_S8192x4_S8192x40_S4x40_0_0_1_1_n_n.lhsIdx_val_of_single rfl i k
/-- On the kept axis the left operand reads the result's row. -/
theorem lhs_ve_1 (i : S4x40.Idx) (k : dot_S8192x4_S8192x40_S4x40_0_0_1_1_n_n.contr.Idx) :
    (dot_S8192x4_S8192x40_S4x40_0_0_1_1_n_n.lhsIdx i k 1).val = (i 0).val := by
  unfold DotDims.lhsIdx
  rw [dif_neg (show ¬(1 : Fin S8192x4.rank) ∈ dot_S8192x4_S8192x40_S4x40_0_0_1_1_n_n.lhsBatch by decide), dif_pos (show (1 : Fin S8192x4.rank) ∈ dot_S8192x4_S8192x40_S4x40_0_0_1_1_n_n.lhsNonContracting by decide)]
  rfl
/-- On the contracted axis the right operand reads the contraction position. -/
theorem rhs_ve_0 (i : S4x40.Idx) (k : dot_S8192x4_S8192x40_S4x40_0_0_1_1_n_n.contr.Idx) :
    (dot_S8192x4_S8192x40_S4x40_0_0_1_1_n_n.rhsIdx i k 0).val = (k ⟨0, by decide⟩).val :=
  dot_S8192x4_S8192x40_S4x40_0_0_1_1_n_n.rhsIdx_val_of_single rfl i k
/-- On the kept axis the right operand reads the result's column. -/
theorem rhs_ve_1 (i : S4x40.Idx) (k : dot_S8192x4_S8192x40_S4x40_0_0_1_1_n_n.contr.Idx) :
    (dot_S8192x4_S8192x40_S4x40_0_0_1_1_n_n.rhsIdx i k 1).val = (i 1).val := by
  unfold DotDims.rhsIdx
  rw [dif_neg (show ¬(1 : Fin S8192x40.rank) ∈ dot_S8192x4_S8192x40_S4x40_0_0_1_1_n_n.rhsBatch by decide), dif_pos (show (1 : Fin S8192x40.rank) ∈ dot_S8192x4_S8192x40_S4x40_0_0_1_1_n_n.rhsNonContracting by decide)]
  rfl

/-- The product of the transposed left operand with the right one, started from zero: entry (p, q) is the
    sum over the 8192 rows r of a[r, p] · b[r, q]. -/
theorem matmul_ve_apply (a : FVec Ideal S8192x4 .bf16) (b : FVec Ideal S8192x40 .bf16) (p : Fin 4) (q : Fin 40) :
    matmul dot_S8192x4_S8192x40_S4x40_0_0_1_1_n_n none a b (constant (F := Ideal) S4x40 .f32 0x00000000#32) (ix2 p q)
      = ∑ r : Fin 8192, a (ix2 r p) * b (ix2 r q) := by
  simp only [matmul]
  rw [Ideal.matmul_constant_zero_apply, ← Equiv.sum_comp (contrEquiv1 dot_S8192x4_S8192x40_S4x40_0_0_1_1_n_n 8192 rfl rfl).symm]
  refine Finset.sum_congr rfl fun k _ => ?_
  have hk := contrEquiv1_symm_val dot_S8192x4_S8192x40_S4x40_0_0_1_1_n_n 8192 rfl rfl k
  have el : dot_S8192x4_S8192x40_S4x40_0_0_1_1_n_n.lhsIdx (ix2 p q) ((contrEquiv1 dot_S8192x4_S8192x40_S4x40_0_0_1_1_n_n 8192 rfl rfl).symm k) = ix2 k p := funext fun c => Fin.ext (by
    match c with
    | ⟨0, _⟩ => exact (lhs_ve_0 _ _).trans hk
    | ⟨1, _⟩ => exact lhs_ve_1 _ _)
  have er : dot_S8192x4_S8192x40_S4x40_0_0_1_1_n_n.rhsIdx (ix2 p q) ((contrEquiv1 dot_S8192x4_S8192x40_S4x40_0_0_1_1_n_n 8192 rfl rfl).symm k) = ix2 k q := funext fun c => Fin.ext (by
    match c with
    | ⟨0, _⟩ => exact (rhs_ve_0 _ _).trans hk
    | ⟨1, _⟩ => exact rhs_ve_1 _ _)
  rw [el, er]

/-! ## The 40 × 40 product -/

/-- On the contracted axis the left operand reads the contraction position. -/
theorem lhs_ee_0 (i : S40x40.Idx) (k : dot_S8192x40_S8192x40_S40x40_0_0_1_1_n_n.contr.Idx) :
    (dot_S8192x40_S8192x40_S40x40_0_0_1_1_n_n.lhsIdx i k 0).val = (k ⟨0, by decide⟩).val :=
  dot_S8192x40_S8192x40_S40x40_0_0_1_1_n_n.lhsIdx_val_of_single rfl i k
/-- On the kept axis the left operand reads the result's row. -/
theorem lhs_ee_1 (i : S40x40.Idx) (k : dot_S8192x40_S8192x40_S40x40_0_0_1_1_n_n.contr.Idx) :
    (dot_S8192x40_S8192x40_S40x40_0_0_1_1_n_n.lhsIdx i k 1).val = (i 0).val := by
  unfold DotDims.lhsIdx
  rw [dif_neg (show ¬(1 : Fin S8192x40.rank) ∈ dot_S8192x40_S8192x40_S40x40_0_0_1_1_n_n.lhsBatch by decide), dif_pos (show (1 : Fin S8192x40.rank) ∈ dot_S8192x40_S8192x40_S40x40_0_0_1_1_n_n.lhsNonContracting by decide)]
  rfl
/-- On the contracted axis the right operand reads the contraction position. -/
theorem rhs_ee_0 (i : S40x40.Idx) (k : dot_S8192x40_S8192x40_S40x40_0_0_1_1_n_n.contr.Idx) :
    (dot_S8192x40_S8192x40_S40x40_0_0_1_1_n_n.rhsIdx i k 0).val = (k ⟨0, by decide⟩).val :=
  dot_S8192x40_S8192x40_S40x40_0_0_1_1_n_n.rhsIdx_val_of_single rfl i k
/-- On the kept axis the right operand reads the result's column. -/
theorem rhs_ee_1 (i : S40x40.Idx) (k : dot_S8192x40_S8192x40_S40x40_0_0_1_1_n_n.contr.Idx) :
    (dot_S8192x40_S8192x40_S40x40_0_0_1_1_n_n.rhsIdx i k 1).val = (i 1).val := by
  unfold DotDims.rhsIdx
  rw [dif_neg (show ¬(1 : Fin S8192x40.rank) ∈ dot_S8192x40_S8192x40_S40x40_0_0_1_1_n_n.rhsBatch by decide), dif_pos (show (1 : Fin S8192x40.rank) ∈ dot_S8192x40_S8192x40_S40x40_0_0_1_1_n_n.rhsNonContracting by decide)]
  rfl

/-- The product of the transposed left operand with the right one, started from zero: entry (p, q) is the
    sum over the 8192 rows r of a[r, p] · b[r, q]. -/
theorem matmul_ee_apply (a : FVec Ideal S8192x40 .bf16) (b : FVec Ideal S8192x40 .bf16) (p : Fin 40) (q : Fin 40) :
    matmul dot_S8192x40_S8192x40_S40x40_0_0_1_1_n_n none a b (constant (F := Ideal) S40x40 .f32 0x00000000#32) (ix2 p q)
      = ∑ r : Fin 8192, a (ix2 r p) * b (ix2 r q) := by
  simp only [matmul]
  rw [Ideal.matmul_constant_zero_apply, ← Equiv.sum_comp (contrEquiv1 dot_S8192x40_S8192x40_S40x40_0_0_1_1_n_n 8192 rfl rfl).symm]
  refine Finset.sum_congr rfl fun k _ => ?_
  have hk := contrEquiv1_symm_val dot_S8192x40_S8192x40_S40x40_0_0_1_1_n_n 8192 rfl rfl k
  have el : dot_S8192x40_S8192x40_S40x40_0_0_1_1_n_n.lhsIdx (ix2 p q) ((contrEquiv1 dot_S8192x40_S8192x40_S40x40_0_0_1_1_n_n 8192 rfl rfl).symm k) = ix2 k p := funext fun c => Fin.ext (by
    match c with
    | ⟨0, _⟩ => exact (lhs_ee_0 _ _).trans hk
    | ⟨1, _⟩ => exact lhs_ee_1 _ _)
  have er : dot_S8192x40_S8192x40_S40x40_0_0_1_1_n_n.rhsIdx (ix2 p q) ((contrEquiv1 dot_S8192x40_S8192x40_S40x40_0_0_1_1_n_n 8192 rfl rfl).symm k) = ix2 k q := funext fun c => Fin.ext (by
    match c with
    | ⟨0, _⟩ => exact (rhs_ee_0 _ _).trans hk
    | ⟨1, _⟩ => exact rhs_ee_1 _ _)
  rw [el, er]

/-! ## The three accumulators' updates -/

/-- The 4 × 4 accumulator's update: the old entry plus the sum over the tile's rows of x[r, p] · x[r, q]. -/
theorem pay9_apply (x : Vec Ideal S1x8192x4 .f32) (acc : Vec Ideal S4x4 .f32) (p q : Fin 4) :
    k0_pay9 x acc (ix2 p q) = acc (ix2 p q) + ∑ r : Fin 8192, x (ix3 (0 : Fin 1) r p) * x (ix3 (0 : Fin 1) r q) := by
  unfold k0_pay9
  rw [shapeCast_self, addf_apply, matmul_vv_apply]
  simp only [pay7_apply]

/-- The 4 × 40 accumulator's update: the old entry plus the sum over the tile's rows of x[r, p] · y[r, q]. -/
theorem pay10_apply (x : Vec Ideal S1x8192x4 .f32) (y : Vec Ideal S1x8192x40 .f32) (acc : Vec Ideal S4x40 .f32) (p : Fin 4) (q : Fin 40) :
    k0_pay10 x y acc (ix2 p q) = acc (ix2 p q) + ∑ r : Fin 8192, x (ix3 (0 : Fin 1) r p) * y (ix3 (0 : Fin 1) r q) := by
  unfold k0_pay10
  rw [shapeCast_self, addf_apply, matmul_ve_apply]
  simp only [pay7_apply, pay8_apply]

/-- The 40 × 40 accumulator's update: the old entry plus the sum over the tile's rows of y[r, p] · y[r, q]. -/
theorem pay11_apply (y : Vec Ideal S1x8192x40 .f32) (acc : Vec Ideal S40x40 .f32) (p q : Fin 40) :
    k0_pay11 y acc (ix2 p q) = acc (ix2 p q) + ∑ r : Fin 8192, y (ix3 (0 : Fin 1) r p) * y (ix3 (0 : Fin 1) r q) := by
  unfold k0_pay11
  rw [shapeCast_self, addf_apply, matmul_ee_apply]
  simp only [pay8_apply]

/-! ## The reset: each accumulator is stored as zero -/

/-- The 4 × 4 reset stores the extended real zero at every entry. -/
theorem pay4_apply (i : S4x4.Idx) : (k0_pay4 (F := Ideal)) i = 0 := by
  unfold k0_pay4
  rw [shapeCast_self, broadcast_apply]
  exact Ideal.ofBits_zero_f32

/-- The 4 × 40 reset likewise. -/
theorem pay5_apply (i : S4x40.Idx) : (k0_pay5 (F := Ideal)) i = 0 := by
  unfold k0_pay5
  rw [shapeCast_self, broadcast_apply]
  exact Ideal.ofBits_zero_f32

/-- The 40 × 40 reset likewise. -/
theorem pay6_apply (i : S40x40.Idx) : (k0_pay6 (F := Ideal)) i = 0 := by
  unfold k0_pay6
  rw [shapeCast_self, broadcast_apply]
  exact Ideal.ofBits_zero_f32

/-! ## The write-back: the accumulator with the unit batch axis re-attached -/

/-- The 4 × 4 result block's entry (0, p, q) is the accumulator's entry (p, q). -/
theorem pay1_apply (v : Vec Ideal S4x4 .f32) (p q : Fin 4) : k0_pay1 v (ix3 (0 : Fin 1) p q) = v (ix2 p q) := by
  unfold k0_pay1
  exact shapeCast_ab_1ab_apply v _ 0 p q

/-- The 4 × 40 result block likewise. -/
theorem pay2_apply (v : Vec Ideal S4x40 .f32) (p : Fin 4) (q : Fin 40) : k0_pay2 v (ix3 (0 : Fin 1) p q) = v (ix2 p q) := by
  unfold k0_pay2
  exact shapeCast_ab_1ab_apply v _ 0 p q

/-- The 40 × 40 result block likewise. -/
theorem pay3_apply (v : Vec Ideal S40x40 .f32) (p q : Fin 40) : k0_pay3 v (ix3 (0 : Fin 1) p q) = v (ix2 p q) := by
  unfold k0_pay3
  exact shapeCast_ab_1ab_apply v _ 0 p q

end Cert.KernelIdeal.Tile

end
-- ==== Proof.KernelFold.lean ====
/-
  The accumulators over a whole batch, and the three arrays the launch leaves.

  Within batch b the accumulator for XᵀY starts, at tile 0, as that tile's Gram sum and gains tile k's Gram sum at
  point 16·b + k; after the last tile it is the sum of the sixteen tile sums, which is the Gram entry over all 131072
  rows. That point writes the accumulator into block b of the output array, and the eight such blocks tile the array:
  the launch leaves gram V V, gram V E and gram E E.
-/
import proofs.«155247_j24713241821608_1_alg».proof.Proof.Gen.KernelIdeal.Frame
import proofs.«155247_j24713241821608_1_alg».proof.Proof.KernelSteps
import proofs.«155247_j24713241821608_1_alg».proof.Proof.TileValue
import proofs.«155247_j24713241821608_1_alg».proof.Proof.GramSpec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Blocks Cert.KernelIdeal.Steps Cert.KernelIdeal.Tile Cert.GramSpec

variable (m : (ℓ : Loc nD τ sig) → Buf (Elt Ideal) ℓ)

/-! ## One point's addend is its tile's Gram sum -/

theorem addend_vv (c : Dev nD) (t : Fin cfg0.N) (p q : Fin 4) :
    ∑ r : Fin 8192, vblk m c t (ix3 (0 : Fin 1) r p) * vblk m c t (ix3 (0 : Fin 1) r q)
      = tileNN (varr m c) (varr m c) p q (t.val / 16) (t.val % 16) := by
  unfold tileNN
  rw [dif_pos ⟨(batchOf t).isLt, (tileOf t).isLt⟩]
  unfold tileGram
  exact Finset.sum_congr rfl fun r _ => by rw [vblk_apply, vblk_apply]

theorem addend_ve (c : Dev nD) (t : Fin cfg0.N) (p : Fin 4) (q : Fin 40) :
    ∑ r : Fin 8192, vblk m c t (ix3 (0 : Fin 1) r p) * eblk m c t (ix3 (0 : Fin 1) r q)
      = tileNN (varr m c) (earr m c) p q (t.val / 16) (t.val % 16) := by
  unfold tileNN
  rw [dif_pos ⟨(batchOf t).isLt, (tileOf t).isLt⟩]
  unfold tileGram
  exact Finset.sum_congr rfl fun r _ => by rw [vblk_apply, eblk_apply]

theorem addend_ee (c : Dev nD) (t : Fin cfg0.N) (p q : Fin 40) :
    ∑ r : Fin 8192, eblk m c t (ix3 (0 : Fin 1) r p) * eblk m c t (ix3 (0 : Fin 1) r q)
      = tileNN (earr m c) (earr m c) p q (t.val / 16) (t.val % 16) := by
  unfold tileNN
  rw [dif_pos ⟨(batchOf t).isLt, (tileOf t).isLt⟩]
  unfold tileGram
  exact Finset.sum_congr rfl fun r _ => by rw [eblk_apply, eblk_apply]

/-! ## The accumulators after any point: the tile sums since the batch began -/

theorem accVV_sum (c : Dev nD) (n : ℕ) (h : n < cfg0.N) (p q : Fin 4) :
    accVV m c n h (ix2 p q) = ∑ s ∈ Finset.range (n % 16 + 1), tileNN (varr m c) (varr m c) p q (n / 16) s :=
  run_sum (fun n h (i : Fin 4 × Fin 4) => accVV m c n h (ix2 i.1 i.2))
    (fun b s (i : Fin 4 × Fin 4) => tileNN (varr m c) (varr m c) i.1 i.2 b s)
    (fun n h h0 i => by
      show accVV m c n h (ix2 i.1 i.2) = _
      rw [show accVV m c n h = _ from (first_tile m c ⟨n, h⟩ h0).1, pay9_apply, pay4_apply, zero_add]
      exact addend_vv m c ⟨n, h⟩ i.1 i.2)
    (fun n h h0 i => by
      show accVV m c (n + 1) h (ix2 i.1 i.2) = accVV m c n _ (ix2 i.1 i.2) + _
      rw [(later_tile m c n h h0).1, pay9_apply]
      exact congrArg _ (addend_vv m c ⟨n + 1, h⟩ i.1 i.2))
    n h (p, q)

theorem accVE_sum (c : Dev nD) (n : ℕ) (h : n < cfg0.N) (p : Fin 4) (q : Fin 40) :
    accVE m c n h (ix2 p q) = ∑ s ∈ Finset.range (n % 16 + 1), tileNN (varr m c) (earr m c) p q (n / 16) s :=
  run_sum (fun n h (i : Fin 4 × Fin 40) => accVE m c n h (ix2 i.1 i.2))
    (fun b s (i : Fin 4 × Fin 40) => tileNN (varr m c) (earr m c) i.1 i.2 b s)
    (fun n h h0 i => by
      show accVE m c n h (ix2 i.1 i.2) = _
      rw [show accVE m c n h = _ from (first_tile m c ⟨n, h⟩ h0).2.1, pay10_apply, pay5_apply, zero_add]
      exact addend_ve m c ⟨n, h⟩ i.1 i.2)
    (fun n h h0 i => by
      show accVE m c (n + 1) h (ix2 i.1 i.2) = accVE m c n _ (ix2 i.1 i.2) + _
      rw [(later_tile m c n h h0).2.1, pay10_apply]
      exact congrArg _ (addend_ve m c ⟨n + 1, h⟩ i.1 i.2))
    n h (p, q)

theorem accEE_sum (c : Dev nD) (n : ℕ) (h : n < cfg0.N) (p q : Fin 40) :
    accEE m c n h (ix2 p q) = ∑ s ∈ Finset.range (n % 16 + 1), tileNN (earr m c) (earr m c) p q (n / 16) s :=
  run_sum (fun n h (i : Fin 40 × Fin 40) => accEE m c n h (ix2 i.1 i.2))
    (fun b s (i : Fin 40 × Fin 40) => tileNN (earr m c) (earr m c) i.1 i.2 b s)
    (fun n h h0 i => by
      show accEE m c n h (ix2 i.1 i.2) = _
      rw [show accEE m c n h = _ from (first_tile m c ⟨n, h⟩ h0).2.2, pay11_apply, pay6_apply, zero_add]
      exact addend_ee m c ⟨n, h⟩ i.1 i.2)
    (fun n h h0 i => by
      show accEE m c (n + 1) h (ix2 i.1 i.2) = accEE m c n _ (ix2 i.1 i.2) + _
      rw [(later_tile m c n h h0).2.2, pay11_apply]
      exact congrArg _ (addend_ee m c ⟨n + 1, h⟩ i.1 i.2))
    n h (p, q)

/-! ## After a batch's last tile: the Gram entries -/

theorem accVV_last (c : Dev nD) (t : Fin cfg0.N) (h15 : t.val % 16 = 15) (p q : Fin 4) :
    accVV m c t.val t.isLt (ix2 p q) = gramAt (varr m c) (varr m c) (batchOf t) p q := by
  rw [accVV_sum, h15]
  exact sum_tileNN (varr m c) (varr m c) p q (batchOf t)

theorem accVE_last (c : Dev nD) (t : Fin cfg0.N) (h15 : t.val % 16 = 15) (p : Fin 4) (q : Fin 40) :
    accVE m c t.val t.isLt (ix2 p q) = gramAt (varr m c) (earr m c) (batchOf t) p q := by
  rw [accVE_sum, h15]
  exact sum_tileNN (varr m c) (earr m c) p q (batchOf t)

theorem accEE_last (c : Dev nD) (t : Fin cfg0.N) (h15 : t.val % 16 = 15) (p q : Fin 40) :
    accEE m c t.val t.isLt (ix2 p q) = gramAt (earr m c) (earr m c) (batchOf t) p q := by
  rw [accEE_sum, h15]
  exact sum_tileNN (earr m c) (earr m c) p q (batchOf t)

end Cert.KernelIdeal.Fold

end
-- ==== Proof.KernelArrays.lean ====
/-
  The three output arrays after the launch.

  Output window w (w = 2, 3, 4 for VᵀV, VᵀE, EᵀE) is written back only at a batch's last tile, point 16·b + 15, and its
  block there is block b of the array: entry (0, p, q) of the block is entry (b, p, q) of the array. What the point
  writes is its accumulator, which by then is the Gram entry over all rows of batch b. The eight blocks tile the
  array, so the array ends as the Gram array.
-/
import proofs.«155247_j24713241821608_1_alg».proof.Proof.Gen.KernelIdeal.Frame
import proofs.«155247_j24713241821608_1_alg».proof.Proof.KernelFold
import proofs.«155247_j24713241821608_1_alg».proof.Proof.KernelSteps
import proofs.«155247_j24713241821608_1_alg».proof.Proof.TileValue
import proofs.«155247_j24713241821608_1_alg».proof.Proof.GramSpec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Blocks Cert.KernelIdeal.Steps Cert.KernelIdeal.Tile Cert.KernelIdeal.Fold Cert.GramSpec

variable (m : (ℓ : Loc nD τ sig) → Buf (Elt Ideal) ℓ)

/-- Each output window's index map sends the point to (batch, 0, 0): decided once over the grid. -/
theorem index_vv : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem index_ve : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem index_ee : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-! ## VᵀV -/

/-- What a flushing point writes back is its block of gram V V. -/
theorem flushed_vv (c : Dev nD) (t : Fin cfg0.N) (hf : (cfg0.win 2).flush t = true) :
    (dats m 0 c).flushed 2 t = ((cfg0.win 2).blk t).view.read (Elt Ideal) (gram (varr m c) (varr m c)) := by
  have h15 : t.val % 16 = 15 := (flush0_2 t).mp hf
  obtain ⟨i0, i1, i2⟩ := index_vv t
  have hacc := accVV_last m c t h15
  have hG : ∀ (b : Fin 8) (p q : Fin 4), gram (varr m c) (varr m c) (ix3 b p q) = gramAt (varr m c) (varr m c) b p q :=
    fun _ _ _ => rfl
  show (cfg0.win 2).cut (grid0.coords t) ((dats m 0 c).after 2 t) = _
  rw [after0_2, show (outsAt0 m c t.val t.isLt).1 = k0_pay1 (accVV m c t.val t.isLt) from (last_tile_out m c t h15).1]
  generalize gram (varr m c) (varr m c) = G at hG ⊢
  generalize accVV m c t.val t.isLt = acc at hacc ⊢
  funext y
  have hy0 : (y 0).val < 1 := (y 0).isLt
  have hy1 : (y 1).val < 4 := (y 1).isLt
  have hy2 : (y 2).val < 4 := (y 2).isLt
  obtain ⟨p, q, rfl⟩ : ∃ (p q : Fin 4), y = ix3 (0 : Fin 1) p q :=
    ⟨⟨(y 1).val, hy1⟩, ⟨(y 2).val, hy2⟩, funext fun a => Fin.ext (by
      match a with
      | ⟨0, _⟩ => show (y 0).val = 0; omega
      | ⟨1, _⟩ => rfl
      | ⟨2, _⟩ => rfl)⟩
  show k0_pay1 acc (ix3 (0 : Fin 1) p q) = G (((cfg0.win 2).blk t).view.emb (ix3 (0 : Fin 1) p q))
  have ee : ((cfg0.win 2).blk t).view.emb (ix3 (0 : Fin 1) p q) = ix3 (batchOf t) p q := by
    funext a; apply Fin.ext
    match a with
    | ⟨0, _⟩ => show win0_2.index t 0 * 1 + 1 * 0 = t.val / 16; rw [i0]; omega
    | ⟨1, _⟩ => show win0_2.index t 1 * 4 + 1 * p.val = p.val; rw [i1]; omega
    | ⟨2, _⟩ => show win0_2.index t 2 * 4 + 1 * q.val = q.val; rw [i2]; omega
  rw [ee, pay1_apply, hacc, hG]

/-- Every entry of the array lies in the block of its batch's last tile. -/
theorem cover_vv (i : S8x4x4.Idx) :
    ∃ t : Fin cfg0.N, (cfg0.win 2).flush t = true ∧ i ∈ ((cfg0.win 2).blk t).view.set := by
  have hi0 : (i 0).val < 8 := (i 0).isLt
  have hi1 : (i 1).val < 4 := (i 1).isLt
  have hi2 : (i 2).val < 4 := (i 2).isLt
  have hN : cfg0.N = 128 := N_0
  obtain ⟨t, ht⟩ : ∃ t : Fin cfg0.N, t.val = 16 * (i 0).val + 15 := ⟨⟨16 * (i 0).val + 15, by omega⟩, rfl⟩
  obtain ⟨i0, i1, i2⟩ := index_vv t
  refine ⟨t, (flush0_2 t).mpr (by omega), ?_⟩
  show i ∈ ((View.whole main_call0_v2_0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [i0]; omega
  | ⟨1, _⟩ => show win0_2.index t 1 * 4 ≤ (i 1).val ∧ (i 1).val < win0_2.index t 1 * 4 + 4; rw [i1]; omega
  | ⟨2, _⟩ => show win0_2.index t 2 * 4 ≤ (i 2).val ∧ (i 2).val < win0_2.index t 2 * 4 + 4; rw [i2]; omega

/-- The array ends as gram V V. -/
theorem final_vv (c : Dev nD) : (dats m 0 c).arrAt 2 cfg0.N = gram (varr m c) (varr m c) :=
  (dats m 0 c).arrAt_eq_of_cover 2 (gram (varr m c) (varr m c)) (flushed_vv m c) cover_vv

/-! ## VᵀE -/

/-- What a flushing point writes back is its block of gram V E. -/
theorem flushed_ve (c : Dev nD) (t : Fin cfg0.N) (hf : (cfg0.win 3).flush t = true) :
    (dats m 0 c).flushed 3 t = ((cfg0.win 3).blk t).view.read (Elt Ideal) (gram (varr m c) (earr m c)) := by
  have h15 : t.val % 16 = 15 := (flush0_3 t).mp hf
  obtain ⟨i0, i1, i2⟩ := index_ve t
  have hacc := accVE_last m c t h15
  have hG : ∀ (b : Fin 8) (p : Fin 4) (q : Fin 40), gram (varr m c) (earr m c) (ix3 b p q) = gramAt (varr m c) (earr m c) b p q :=
    fun _ _ _ => rfl
  show (cfg0.win 3).cut (grid0.coords t) ((dats m 0 c).after 3 t) = _
  rw [after0_3, show (outsAt0 m c t.val t.isLt).2.1 = k0_pay2 (accVE m c t.val t.isLt) from (last_tile_out m c t h15).2.1]
  generalize gram (varr m c) (earr m c) = G at hG ⊢
  generalize accVE m c t.val t.isLt = acc at hacc ⊢
  funext y
  have hy0 : (y 0).val < 1 := (y 0).isLt
  have hy1 : (y 1).val < 4 := (y 1).isLt
  have hy2 : (y 2).val < 40 := (y 2).isLt
  obtain ⟨p, q, rfl⟩ : ∃ (p : Fin 4) (q : Fin 40), y = ix3 (0 : Fin 1) p q :=
    ⟨⟨(y 1).val, hy1⟩, ⟨(y 2).val, hy2⟩, funext fun a => Fin.ext (by
      match a with
      | ⟨0, _⟩ => show (y 0).val = 0; omega
      | ⟨1, _⟩ => rfl
      | ⟨2, _⟩ => rfl)⟩
  show k0_pay2 acc (ix3 (0 : Fin 1) p q) = G (((cfg0.win 3).blk t).view.emb (ix3 (0 : Fin 1) p q))
  have ee : ((cfg0.win 3).blk t).view.emb (ix3 (0 : Fin 1) p q) = ix3 (batchOf t) p q := by
    funext a; apply Fin.ext
    match a with
    | ⟨0, _⟩ => show win0_3.index t 0 * 1 + 1 * 0 = t.val / 16; rw [i0]; omega
    | ⟨1, _⟩ => show win0_3.index t 1 * 4 + 1 * p.val = p.val; rw [i1]; omega
    | ⟨2, _⟩ => show win0_3.index t 2 * 40 + 1 * q.val = q.val; rw [i2]; omega
  rw [ee, pay2_apply, hacc, hG]

/-- Every entry of the array lies in the block of its batch's last tile. -/
theorem cover_ve (i : S8x4x40.Idx) :
    ∃ t : Fin cfg0.N, (cfg0.win 3).flush t = true ∧ i ∈ ((cfg0.win 3).blk t).view.set := by
  have hi0 : (i 0).val < 8 := (i 0).isLt
  have hi1 : (i 1).val < 4 := (i 1).isLt
  have hi2 : (i 2).val < 40 := (i 2).isLt
  have hN : cfg0.N = 128 := N_0
  obtain ⟨t, ht⟩ : ∃ t : Fin cfg0.N, t.val = 16 * (i 0).val + 15 := ⟨⟨16 * (i 0).val + 15, by omega⟩, rfl⟩
  obtain ⟨i0, i1, i2⟩ := index_ve t
  refine ⟨t, (flush0_3 t).mpr (by omega), ?_⟩
  show i ∈ ((View.whole main_call0_v2_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [i0]; omega
  | ⟨1, _⟩ => show win0_3.index t 1 * 4 ≤ (i 1).val ∧ (i 1).val < win0_3.index t 1 * 4 + 4; rw [i1]; omega
  | ⟨2, _⟩ => show win0_3.index t 2 * 40 ≤ (i 2).val ∧ (i 2).val < win0_3.index t 2 * 40 + 40; rw [i2]; omega

/-- The array ends as gram V E. -/
theorem final_ve (c : Dev nD) : (dats m 0 c).arrAt 3 cfg0.N = gram (varr m c) (earr m c) :=
  (dats m 0 c).arrAt_eq_of_cover 3 (gram (varr m c) (earr m c)) (flushed_ve m c) cover_ve

/-! ## EᵀE -/

/-- What a flushing point writes back is its block of gram E E. -/
theorem flushed_ee (c : Dev nD) (t : Fin cfg0.N) (hf : (cfg0.win 4).flush t = true) :
    (dats m 0 c).flushed 4 t = ((cfg0.win 4).blk t).view.read (Elt Ideal) (gram (earr m c) (earr m c)) := by
  have h15 : t.val % 16 = 15 := (flush0_4 t).mp hf
  obtain ⟨i0, i1, i2⟩ := index_ee t
  have hacc := accEE_last m c t h15
  have hG : ∀ (b : Fin 8) (p q : Fin 40), gram (earr m c) (earr m c) (ix3 b p q) = gramAt (earr m c) (earr m c) b p q :=
    fun _ _ _ => rfl
  show (cfg0.win 4).cut (grid0.coords t) ((dats m 0 c).after 4 t) = _
  rw [after0_4, show (outsAt0 m c t.val t.isLt).2.2.1 = k0_pay3 (accEE m c t.val t.isLt) from (last_tile_out m c t h15).2.2]
  generalize gram (earr m c) (earr m c) = G at hG ⊢
  generalize accEE m c t.val t.isLt = acc at hacc ⊢
  funext y
  have hy0 : (y 0).val < 1 := (y 0).isLt
  have hy1 : (y 1).val < 40 := (y 1).isLt
  have hy2 : (y 2).val < 40 := (y 2).isLt
  obtain ⟨p, q, rfl⟩ : ∃ (p q : Fin 40), y = ix3 (0 : Fin 1) p q :=
    ⟨⟨(y 1).val, hy1⟩, ⟨(y 2).val, hy2⟩, funext fun a => Fin.ext (by
      match a with
      | ⟨0, _⟩ => show (y 0).val = 0; omega
      | ⟨1, _⟩ => rfl
      | ⟨2, _⟩ => rfl)⟩
  show k0_pay3 acc (ix3 (0 : Fin 1) p q) = G (((cfg0.win 4).blk t).view.emb (ix3 (0 : Fin 1) p q))
  have ee : ((cfg0.win 4).blk t).view.emb (ix3 (0 : Fin 1) p q) = ix3 (batchOf t) p q := by
    funext a; apply Fin.ext
    match a with
    | ⟨0, _⟩ => show win0_4.index t 0 * 1 + 1 * 0 = t.val / 16; rw [i0]; omega
    | ⟨1, _⟩ => show win0_4.index t 1 * 40 + 1 * p.val = p.val; rw [i1]; omega
    | ⟨2, _⟩ => show win0_4.index t 2 * 40 + 1 * q.val = q.val; rw [i2]; omega
  rw [ee, pay3_apply, hacc, hG]

/-- Every entry of the array lies in the block of its batch's last tile. -/
theorem cover_ee (i : S8x40x40.Idx) :
    ∃ t : Fin cfg0.N, (cfg0.win 4).flush t = true ∧ i ∈ ((cfg0.win 4).blk t).view.set := by
  have hi0 : (i 0).val < 8 := (i 0).isLt
  have hi1 : (i 1).val < 40 := (i 1).isLt
  have hi2 : (i 2).val < 40 := (i 2).isLt
  have hN : cfg0.N = 128 := N_0
  obtain ⟨t, ht⟩ : ∃ t : Fin cfg0.N, t.val = 16 * (i 0).val + 15 := ⟨⟨16 * (i 0).val + 15, by omega⟩, rfl⟩
  obtain ⟨i0, i1, i2⟩ := index_ee t
  refine ⟨t, (flush0_4 t).mpr (by omega), ?_⟩
  show i ∈ ((View.whole main_call0_v2_2).slice (win0_4.rect t)).set
  rw [View.set_slice_whole, Rect.mem_set_unit]
  intro a
  match a with
  | ⟨0, _⟩ => show win0_4.index t 0 * 1 ≤ (i 0).val ∧ (i 0).val < win0_4.index t 0 * 1 + 1; rw [i0]; omega
  | ⟨1, _⟩ => show win0_4.index t 1 * 40 ≤ (i 1).val ∧ (i 1).val < win0_4.index t 1 * 40 + 40; rw [i1]; omega
  | ⟨2, _⟩ => show win0_4.index t 2 * 40 ≤ (i 2).val ∧ (i 2).val < win0_4.index t 2 * 40 + 40; rw [i2]; omega

/-- The array ends as gram E E. -/
theorem final_ee (c : Dev nD) : (dats m 0 c).arrAt 4 cfg0.N = gram (earr m c) (earr m c) :=
  (dats m 0 c).arrAt_eq_of_cover 4 (gram (earr m c) (earr m c)) (flushed_ee m c) cover_ee

end Cert.KernelIdeal.Arrays

end
-- ==== Proof.KernelRun.lean ====
/-
  The idealized kernel program's run, read: its result is tail of the three Gram arrays of the re-laid inputs.

  After the launch the host squares the three arrays, sums each, combines the sums and divides by 2^20; the arrays it
  reads are the ones the launch left, the Gram arrays. The arguments end as they began.
-/
import proofs.«155247_j24713241821608_1_alg».proof.Proof.Gen.KernelIdeal.Frame
import proofs.«155247_j24713241821608_1_alg».proof.Proof.KernelArrays
import proofs.«155247_j24713241821608_1_alg».proof.Proof.KernelBlocks
import proofs.«155247_j24713241821608_1_alg».proof.Proof.GramSpec
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Blocks Cert.KernelIdeal.Arrays Cert.GramSpec

variable (m : (ℓ : Loc nD τ sig) → Buf (Elt Ideal) ℓ) (ρ : Dev nD → PrngReg)

/-- The three arrays as the host lines after the launch find them. -/
theorem left_vv (c : Dev nD) :
    Pipeline.withArrays spec0 c (V0 m c) (fun w => (dats m 0 c).arrAt w cfg0.N) (Proc.devRef .tc main_call0_v2_0)
      = gram (varr m c) (varr m c) :=
  (Pipeline.withArrays_arr spec0 launch0.win.arr_inj c (V0 m c) (fun w => (dats m 0 c).arrAt w cfg0.N) 2).trans (final_vv m c)
theorem left_ve (c : Dev nD) :
    Pipeline.withArrays spec0 c (V0 m c) (fun w => (dats m 0 c).arrAt w cfg0.N) (Proc.devRef .tc main_call0_v2_1)
      = gram (varr m c) (earr m c) :=
  (Pipeline.withArrays_arr spec0 launch0.win.arr_inj c (V0 m c) (fun w => (dats m 0 c).arrAt w cfg0.N) 3).trans (final_ve m c)
theorem left_ee (c : Dev nD) :
    Pipeline.withArrays spec0 c (V0 m c) (fun w => (dats m 0 c).arrAt w cfg0.N) (Proc.devRef .tc main_call0_v2_2)
      = gram (earr m c) (earr m c) :=
  (Pipeline.withArrays_arr spec0 launch0.win.arr_inj c (V0 m c) (fun w => (dats m 0 c).arrAt w cfg0.N) 4).trans (final_ee m c)

/-- The program's result after the host lines: tail of the three Gram arrays. -/
theorem result_eq (c : Dev nD) :
    Pipeline.afterTail₀ cfgs (dats m) 0 (V0 m) [hostOps1] c main_v0
      = tail (F := Ideal) reducesTo_S8x4x4_S_d0_1_2 reducesTo_S8x4x40_S_d0_1_2 reducesTo_S8x40x40_S_d0_1_2 h_S_
          (gram (varr m c) (varr m c)) (gram (varr m c) (earr m c)) (gram (earr m c) (earr m c)) := by
  unfold Pipeline.afterTail₀
  show StableHlo.after hostOps1 (Pipeline.withArrays spec0 c (V0 m c) (fun w => (dats m 0 c).arrAt w cfg0.N)) (Proc.devRef .tc main_v0) = _
  generalize hW : Pipeline.withArrays spec0 c (V0 m c) (fun w => (dats m 0 c).arrAt w cfg0.N) = W
  have e2 := left_vv m c
  have e3 := left_ve m c
  have e4 := left_ee m c
  rw [hW] at e2 e3 e4
  after_results
  rw [e2, e3, e4]
  generalize gram (varr m c) (varr m c) = a
  generalize gram (varr m c) (earr m c) = b
  generalize gram (earr m c) (earr m c) = d
  unfold tail
  rfl

/-- Every weakly fair execution of the idealized kernel program terminates with its result at tail of the three Gram
    arrays of the re-laid inputs and its arguments unchanged. -/
theorem run : θ_run defs (onTc (τ := τ) (main (F := Ideal))) ⟨m, fun _ => 0, ρ⟩ fun r => ∀ c : Dev nD,
      r.2.mem ((c.tc : Thread nD τ).loc main_v0)
        = tail (F := Ideal) reducesTo_S8x4x4_S_d0_1_2 reducesTo_S8x4x40_S_d0_1_2 reducesTo_S8x40x40_S_d0_1_2 h_S_
            (gram (varr m c) (varr m c)) (gram (varr m c) (earr m c)) (gram (earr m c) (earr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.lean ====
/-
  The kernel program and its reference compute one number: the Deep-Clustering loss of the assignments V and the
  embeddings E by the trace identity,
      ((Σ (VᵀV)² − 2 · Σ (VᵀE)² + Σ (EᵀE)²) summed over the 8 batches) / 2^20,
  where for each batch VᵀV, VᵀE and EᵀE are the Gram matrices over the 131072 rows of the re-laid inputs.

  The reference takes each Gram array in one contraction over the long axis. The kernel walks the long axis in 16 tiles
  of 8192 rows per batch, adding each tile's product (of the inputs narrowed to a 16-bit float, which on the extended
  reals is the identity) into an accumulator it zeroes at the batch's first tile and writes out at its last. Splitting
  the long axis into tiles only regroups a finite sum, so both programs hold the same three Gram arrays
  (Cert.GramSpec.gram), and both then apply the same scalar function to them (Cert.GramSpec.tail). No finiteness of the
  inputs is used.

  The word-level kernel's and the idealized kernel's frames are the generated frame certificates; the reference's frame
  is its generated run with the result dropped; the ideal pass rewrote nothing.
-/
import proofs.«155247_j24713241821608_1_alg».proof.Defs
import proofs.«155247_j24713241821608_1_alg».proof.Proof.Gen.Kernel
import proofs.«155247_j24713241821608_1_alg».proof.Proof.Gen.Kernel.Frame
import proofs.«155247_j24713241821608_1_alg».proof.Proof.Gen.KernelIdeal
import proofs.«155247_j24713241821608_1_alg».proof.Proof.Gen.KernelIdeal.Frame
import proofs.«155247_j24713241821608_1_alg».proof.Proof.Gen.ReferenceIdeal
import proofs.«155247_j24713241821608_1_alg».proof.Proof.Gen.Pre_finite_inputs
import proofs.«155247_j24713241821608_1_alg».proof.Proof.Gen.ReferenceIdeal.Run
import proofs.«155247_j24713241821608_1_alg».proof.Proof.Gen.ReferenceIdeal.Read
import proofs.«155247_j24713241821608_1_alg».proof.Proof.GramSpec
import proofs.«155247_j24713241821608_1_alg».proof.Proof.RefGram
import proofs.«155247_j24713241821608_1_alg».proof.Proof.KernelBlocks
import proofs.«155247_j24713241821608_1_alg».proof.Proof.KernelRun
import Idealize.ShloMosaic.Adequacy
import Idealize.ShloMosaic.Init

noncomputable section

namespace Cert.Proof

open Idealize.ShloMosaic Idealize.ShloMosaic.TcCoe Idealize.SL.Sem Cert.GramSpec

/-- The reference's result, over re-laid inputs written with the kernel program's names: tail of the three Gram arrays of
    the assignments x1 and the embeddings x0 re-laid to [8, 131072, ·]. (The two programs print the same shapes and the
    same re-laying; only the names of their side conditions differ, and any two proofs of one proposition are equal.) -/
theorem reference_result (x0 : Cert.KernelIdeal.S8x256x512x40.Idx → Ideal .f32) (x1 : Cert.KernelIdeal.S8x256x512x4.Idx → Ideal .f32) :
    Cert.ReferenceIdeal.Read.val_main_v14 (F := Ideal) x0 x1
      = tail (F := Ideal) Cert.KernelIdeal.Facts₀.reducesTo_S8x4x4_S_d0_1_2 Cert.KernelIdeal.Facts₀.reducesTo_S8x4x40_S_d0_1_2
          Cert.KernelIdeal.Facts₀.reducesTo_S8x40x40_S_d0_1_2 Cert.KernelIdeal.Facts₀.h_S_
          (gram (shapeCast Cert.KernelIdeal.S8x131072x4 x1 Cert.KernelIdeal.Facts₀.shapeCasts_S8x256x512x4_S8x131072x4)
            (shapeCast Cert.KernelIdeal.S8x131072x4 x1 Cert.KernelIdeal.Facts₀.shapeCasts_S8x256x512x4_S8x131072x4))
          (gram (shapeCast Cert.KernelIdeal.S8x131072x4 x1 Cert.KernelIdeal.Facts₀.shapeCasts_S8x256x512x4_S8x131072x4)
            (shapeCast Cert.KernelIdeal.S8x131072x40 x0 Cert.KernelIdeal.Facts₀.shapeCasts_S8x256x512x40_S8x131072x40))
          (gram (shapeCast Cert.KernelIdeal.S8x131072x40 x0 Cert.KernelIdeal.Facts₀.shapeCasts_S8x256x512x40_S8x131072x40)
            (shapeCast Cert.KernelIdeal.S8x131072x40 x0 Cert.KernelIdeal.Facts₀.shapeCasts_S8x256x512x40_S8x131072x40)) :=
  Cert.ReferenceIdeal.RefValue.ref_result x0 x1

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with tail of the three Gram arrays of arguments that agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2, reference_result,
    Cert.KernelIdeal.Blocks.varr_eq, Cert.KernelIdeal.Blocks.earr_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
